-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64 .f32) (main_arg8 : FVec F S64 .f32) (main_arg9 : FVec F S64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 45
  | .vmem => 29
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S50000x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S_, .f32⟩
  | .hbm, ⟨42, _⟩ => ⟨S1x64, .f32⟩
  | .hbm, ⟨43, _⟩ => ⟨S1x64, .f32⟩
  | .hbm, ⟨44, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v79 : BitVec 1 := Scalar.cmpi .eq arg0 c9_i32
  let v80 : BitVec 32 := Scalar.extui v79
  let c0_i32_37 : BitVec 32 := 0#32
  let v81 : BitVec 1 := Scalar.cmpi .ne v80 c0_i32_37
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  reduces_S5000x64_S5000 : S5000x64.Reduces [1] S5000
  shapeCasts_S5000_S5000x1 : S5000.ShapeCasts S5000x1
  broadcasts_S5000x1_S5000x64 : S5000x1.Broadcasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S1x64.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v18_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v18_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S_, .f32⟩
  | 29 => ⟨S50000x64, .f32⟩
  | 30 => ⟨S50000x64, .f32⟩
  | 31 => ⟨S50000x64, .f32⟩
  | 32 => ⟨S64x64, .f32⟩
  | 33 => ⟨S50000x64, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x64, .f32⟩
  | 41 => ⟨S50000x64, .f32⟩
  | 42 => ⟨S50000x64, .f32⟩
  | 43 => ⟨S_, .f32⟩
  | 44 => ⟨S50000, .f32⟩
  | 45 => ⟨S50000x1, .f32⟩
  | 46 => ⟨S_, .f32⟩
  | 47 => ⟨S50000x1, .f32⟩
  | 48 => ⟨S50000x1, .f32⟩
  | 49 => ⟨S50000x64, .f32⟩
  | 50 => ⟨S50000x64, .f32⟩
  | 51 => ⟨S_, .f32⟩
  | 52 => ⟨S50000x1, .f32⟩
  | 53 => ⟨S50000x1, .f32⟩
  | 54 => ⟨S50000x1, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S64x64, .f32⟩
  | 67 => ⟨S50000x64, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x64, .f32⟩
  | 75 => ⟨S50000x64, .f32⟩
  | 76 => ⟨S50000x64, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x64, .f32⟩
  | 84 => ⟨S50000x64, .f32⟩
  | 85 => ⟨S_, .f32⟩
  | 86 => ⟨S50000x1, .f32⟩
  | 87 => ⟨S50000x1, .f32⟩
  | 88 => ⟨S50000x1, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S1x64, .f32⟩
  | 118 => ⟨S50000x64, .f32⟩
  | 119 => ⟨S50000x64, .f32⟩
  | 120 => ⟨S_, .f32⟩
  | 121 => ⟨S1x64, .f32⟩
  | 122 => ⟨S1x64, .f32⟩
  | 123 => ⟨S1x64, .f32⟩
  | 124 => ⟨S50000x64, .f32⟩
  | 125 => ⟨S50000x64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_cst : Ref sig .tc := ⟨.hbm, 63, rfl⟩
abbrev main_call0_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call1_cst : Ref sig .tc := ⟨.hbm, 97, rfl⟩
abbrev main_call1_v0 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S1x64 : S_.BroadcastsInDim S1x64 (![] : Fin 0 → Fin S1x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.BReg0.lean ====
/-
  The first kernel region: the two-layer network on each block of 5000 rows (the block's own rows times one
  plus its aggregated neighbour rows, then twice a linear map, a layer normalisation and a clamp at zero),
  stored block by block, together with the running column sums of the results.  The body keeps the sums
  in a scratch buffer: it clears it at the first grid point, adds the block's column sums at every point,
  and copies it to the second output buffer at the last point.  Stated at any float instance and at any
  contents `V` of the buffers at the region's entry.
-/
import proofs.«181132_j3805341024429_1_alg».proof.Proof.Gen.Kernel.Launch
import proofs.«181132_j3805341024429_1_alg».proof.Proof.Gen.Kernel.Skeleton
import proofs.«181132_j3805341024429_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffer the body carries the running column sums in. -/
abbrev scM0 : Memref sig .tc .vmem S1x64 .f32 := Memref.whole cc0_scratch0

/-- The word `0.0` the body's second part is handed. -/
abbrev z0 : F .f32 := Scalar.ofBits .f32 0x00000000#32

/-- The first layer's value before its clamp, on point `t`'s blocks. -/
def pre0 (c : Dev nD) (t : Fin cfg0.N) : FVec F S5000x64 .f32 :=
  k0_pay3 (iblk0 V c 0 t) (iblk0 V c 1 t) (iblk0 V c 2 t) (iblk0 V c 3 t) (iblk0 V c 4 t)

/-- The block of results the body stores at point `t`. -/
def hblk0 (c : Dev nD) (t : Fin cfg0.N) : FVec F S5000x64 .f32 :=
  k0_pay4 (pre0 V c t) (z0 (F := F)) (iblk0 V c 5 t) (iblk0 V c 6 t) (iblk0 V c 7 t)

/-- What the scratch holds after the body at point `n`: the cleared buffer plus the first block's column sums at
    the first point, afterwards what the point before left plus this block's. -/
def acc0 (c : Dev nD) : (n : ℕ) → n < cfg0.N → Vec F S1x64 .f32
  | 0, h => k0_pay1 (k0_pay5 (pre0 V c ⟨0, h⟩) (z0 (F := F)) (iblk0 V c 5 ⟨0, h⟩) (iblk0 V c 6 ⟨0, h⟩) (iblk0 V c 7 ⟨0, h⟩) (k0_pay2 (F := F)))
  | n + 1, h => k0_pay1 (k0_pay5 (pre0 V c ⟨n + 1, h⟩) (z0 (F := F)) (iblk0 V c 5 ⟨n + 1, h⟩) (iblk0 V c 6 ⟨n + 1, h⟩) (iblk0 V c 7 ⟨n + 1, h⟩) (acc0 c n (Nat.lt_of_succ_lt h)))

abbrev cond0a (i : grid0.Coords) : Prop := (Scalar.cmpi .ne (Scalar.extui (Scalar.cmpi .eq (BitVec.ofNat 32 (i 0).val) 0#32)) 0#32) = 1#1
abbrev cond0b (i : grid0.Coords) : Prop := k0_cond2 i = 1#1

theorem hz2 : (![0, 0] : Fin 2 → Nat) = fun _ => 0 := funext fun a => by fin_cases a <;> rfl

/-- A buffer whose last store went through the whole-shape rectangle at zero offsets reads that store's value,
    whatever was stored before. -/
theorem read_writes_unit_zero {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

set_option maxHeartbeats 4000000 in
/-- The body at the first point (the clear taken, the copy-out not): the inputs keep their contents, the block of
    results is stored, the scratch ends at the cleared buffer plus this block's column sums. -/
theorem sound_kernel0_A (c : Dev nD) (E : Set ℕ) (i : grid0.Coords) (hc0 : cond0a i) (hc1 : ¬cond0b i)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S5000x64 .f32) (harg9 : arg9.IsWhole) (arg10 : Memref sig .tc .vmem S1x64 .f32) (harg10 : arg10.IsWhole)
    (arg11 : Memref sig .tc .vmem S1x64 .f32) (harg11 : arg11.IsWhole)
    (x0 x1 : Vec F S5000x64 .f32) (x2 : Vec F S64x64 .f32) (x3 x4 : Vec F S1x64 .f32) (x5 : Vec F S64x64 .f32) (x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay4 (k0_pay3 x0 x1 x2 x3 x4) (z0 (F := F)) x5 x6 x7)
            ∗ owns (c : Thread nD τ) arg11 fullShare (k0_pay1 (k0_pay5 (k0_pay3 x0 x1 x2 x3 x4) (z0 (F := F)) x5 x6 x7 (k0_pay2 (F := F))))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  iexists _; isplitr
  swap; · iexact HS
  ipureintro
  refine (read_writes_unit_zero _ _ hz2 _ _ _).trans ?_
  dsimp only; sl_unfold_words
  simp only [View.readAt_eq_ld, View.ld_unit_zero (S := S5000x64) hz2, View.ld_unit_zero (S := S64x64) hz2, View.ld_unit_zero (S := S1x64) hz2, View.readCov_unit_zero (S := S1x64) _ hz2]

set_option maxHeartbeats 4000000 in
/-- The body at a middle point (neither branch taken): the scratch ends at what it held plus this block's column sums. -/
theorem sound_kernel0_B (c : Dev nD) (E : Set ℕ) (i : grid0.Coords) (hc0 : ¬cond0a i) (hc1 : ¬cond0b i)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S5000x64 .f32) (harg9 : arg9.IsWhole) (arg10 : Memref sig .tc .vmem S1x64 .f32) (harg10 : arg10.IsWhole)
    (arg11 : Memref sig .tc .vmem S1x64 .f32) (harg11 : arg11.IsWhole)
    (x0 x1 : Vec F S5000x64 .f32) (x2 : Vec F S64x64 .f32) (x3 x4 : Vec F S1x64 .f32) (x5 : Vec F S64x64 .f32) (x6 x7 : Vec F S1x64 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay4 (k0_pay3 x0 x1 x2 x3 x4) (z0 (F := F)) x5 x6 x7)
            ∗ owns (c : Thread nD τ) arg11 fullShare (k0_pay1 (k0_pay5 (k0_pay3 x0 x1 x2 x3 x4) (z0 (F := F)) x5 x6 x7 xs))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  iexists _; isplitr
  swap; · iexact HS
  ipureintro
  refine (read_writes_unit_zero _ _ hz2 _ _ _).trans ?_
  dsimp only; sl_unfold_words
  simp only [View.readAt_eq_ld, View.ld_unit_zero (S := S5000x64) hz2, View.ld_unit_zero (S := S64x64) hz2, View.ld_unit_zero (S := S1x64) hz2, View.readCov_unit_zero (S := S1x64) _ hz2]

set_option maxHeartbeats 4000000 in
/-- The body at the last point (only the copy-out taken): as at a middle point, and the buffer of column sums ends
    at what the scratch ends at. -/
theorem sound_kernel0_C (c : Dev nD) (E : Set ℕ) (i : grid0.Coords) (hc0 : ¬cond0a i) (hc1 : cond0b i)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S5000x64 .f32) (harg9 : arg9.IsWhole) (arg10 : Memref sig .tc .vmem S1x64 .f32) (harg10 : arg10.IsWhole)
    (arg11 : Memref sig .tc .vmem S1x64 .f32) (harg11 : arg11.IsWhole)
    (x0 x1 : Vec F S5000x64 .f32) (x2 : Vec F S64x64 .f32) (x3 x4 : Vec F S1x64 .f32) (x5 : Vec F S64x64 .f32) (x6 x7 : Vec F S1x64 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay4 (k0_pay3 x0 x1 x2 x3 x4) (z0 (F := F)) x5 x6 x7)
            ∗ owns (c : Thread nD τ) arg10 fullShare (k0_pay1 (k0_pay5 (k0_pay3 x0 x1 x2 x3 x4) (z0 (F := F)) x5 x6 x7 xs))
            ∗ owns (c : Thread nD τ) arg11 fullShare (k0_pay1 (k0_pay5 (k0_pay3 x0 x1 x2 x3 x4) (z0 (F := F)) x5 x6 x7 xs))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  isplitl [H9]
  · iexists _; isplitr
    swap; · iexact H9
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  iexists _; isplitr
  swap; · iexact HS
  ipureintro
  refine (read_writes_unit_zero _ _ hz2 _ _ _).trans ?_
  dsimp only; sl_unfold_words
  simp only [View.readAt_eq_ld, View.ld_unit_zero (S := S5000x64) hz2, View.ld_unit_zero (S := S64x64) hz2, View.ld_unit_zero (S := S1x64) hz2, View.readCov_unit_zero (S := S1x64) _ hz2]

/-! An input window's staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The core's scoped buffers that are neither a staging buffer of this call nor its scratch, each at anything. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- The region's invariant before position `n`: at the start what the launch hands the region; afterwards the
    scratch at what the point before left, the core's other scoped buffers at anything, the generator register at
    some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

/-- After point `n`: the scratch at that point's contents. -/
theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

/-- Before a point that is not the first: the scratch at what the point before left. -/
theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

/-- What the launch hands the region, with the scratch as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The scratch after the first point: the cleared buffer plus the first block's column sums. -/
theorem acc0_first (c : Dev nD) (t : Fin cfg0.N) (hz : t.val = 0) :
    acc0 V c t.val t.isLt = k0_pay1 (k0_pay5 (pre0 V c t) (z0 (F := F)) (iblk0 V c 5 t) (iblk0 V c 6 t) (iblk0 V c 7 t) (k0_pay2 (F := F))) := by
  obtain ⟨n, hn⟩ := t
  cases n with
  | zero => rfl
  | succ n => exact absurd hz (Nat.succ_ne_zero n)

/-- The scratch after a later point: what the point before left plus this block's column sums. -/
theorem acc0_later (c : Dev nD) (t : Fin cfg0.N) (hz : t.val ≠ 0) :
    acc0 V c t.val t.isLt = k0_pay1 (k0_pay5 (pre0 V c t) (z0 (F := F)) (iblk0 V c 5 t) (iblk0 V c 6 t) (iblk0 V c 7 t)
      (acc0 V c (t.val - 1) (Nat.lt_of_le_of_lt (Nat.sub_le _ _) t.isLt))) := by
  obtain ⟨n, hn⟩ := t
  cases n with
  | zero => exact absurd rfl hz
  | succ n => rfl

/-- The clear is taken at the first point only, -/
theorem hcond0a : ∀ t : Fin cfg0.N, cond0a (grid0.coords t) ↔ t.val % 10 = 0 :=
  (by decide +kernel : ∀ t : Fin grid0.N, cond0a (grid0.coords t) ↔ t.val % 10 = 0)
/-- the copy-out at the last point only. -/
theorem hcond0b : ∀ t : Fin cfg0.N, cond0b (grid0.coords t) ↔ t.val % 10 = 9 :=
  (by decide +kernel : ∀ t : Fin grid0.N, cond0b (grid0.coords t) ↔ t.val % 10 = 9)
/-- Where the copy-out is not taken the window of column sums is idle and not written back; -/
theorem idleAt0_9 : ∀ t : Fin cfg0.N, ¬cond0b (grid0.coords t) → cfg0.idle 9 (grid0.coords t) = true := by decide +kernel
theorem noFlush0_9 : ∀ t : Fin cfg0.N, ¬cond0b (grid0.coords t) → (cfg0.win 9).flush t = false := by decide +kernel
/-- where it is taken the window is live. -/
theorem liveAt0_9 : ∀ t : Fin cfg0.N, cond0b (grid0.coords t) → cfg0.idle 9 (grid0.coords t) = false := by decide +kernel

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => hblk0 V c t
    | ⟨9, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = hblk0 V c t := by dsimp only [dat0]
theorem after0_9 (c : Dev nD) (t : Fin cfg0.N) : (dat0 V c).after 9 t = acc0 V c t.val t.isLt := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d

theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ (dat0 V c).leavesExact 9 t)

set_option maxHeartbeats 4000000 in
/-- The body at any point.  The inputs' buffers hold their blocks; the point is the first, a middle one or the
    last; the invariant hands the body the scratch (at anything at the first point, else at what the point before
    left) and takes it back at this point's contents; the window of column sums is handed back untouched except at
    the last point, where it ends at the scratch's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  have hN : t.val < 10 := lt_of_lt_of_eq t.isLt (show cfg0.N = 10 from N_0)
  by_cases h0 : t.val % 10 = 0
  · have hz : t.val = 0 := by omega
    have hb : ¬t.val % 10 = 9 := by omega
    rw [Dat.leavesExact_idle (dat0 V c) 9 t (idleAt0_9 t (fun h => hb ((hcond0b t).mp h))) (noFlush0_9 t (fun h => hb ((hcond0b t).mp h)))]
    rw [acc0_first V c t hz]
    rw [PhiS0_castSucc V c t, PhiS0_zero V c _ _ hz, PhiA0_eq]
    unfold hblk0 pre0
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (sound_kernel0_A c Set.univ _ ((hcond0a t).mpr h0) (fun h => hb ((hcond0b t).mp h)) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := by omega
    by_cases h1 : t.val % 10 = 9
    · rw [show (dat0 V c).leavesExact 9 t = owns (c : Thread nD τ) (st0_9 t) fullShare ((dat0 V c).after 9 t) from by
        unfold Dat.leavesExact; rw [liveAt0_9 t ((hcond0b t).mpr h1)], after0_9]
      rw [acc0_later V c t hz]
      rw [PhiS0_castSucc V c t, PhiS0_pos V c _ _ hz]
      unfold hblk0 pre0
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel0_C c Set.univ _ (fun h => h0 ((hcond0a t).mp h)) ((hcond0b t).mpr h1) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hb : ¬t.val % 10 = 9 := h1
      rw [Dat.leavesExact_idle (dat0 V c) 9 t (idleAt0_9 t (fun h => hb ((hcond0b t).mp h))) (noFlush0_9 t (fun h => hb ((hcond0b t).mp h)))]
      rw [acc0_later V c t hz]
      rw [PhiS0_castSucc V c t, PhiS0_pos V c _ _ hz]
      unfold hblk0 pre0
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
      iapply (sound_kernel0_B c Set.univ _ (fun h => h0 ((hcond0a t).mp h)) (fun h => hb ((hcond0b t).mp h)) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives back what the launch handed over. -/
theorem hout0 (c : Dev nD) : (dat0 V c).Φ (Fin.last cfg0.N) ⊢ (Pipeline.ΦA spec0 c : sProp 𝕄) := by
  have hN : (Fin.last cfg0.N).val ≠ 0 := by rw [Fin.val_last]; have : cfg0.N = 10 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨HS, Hr, Hg⟩
  isplitl [HS Hr]
  · isplitl [HS]; · iexists _; iexact HS
    iexact Hr
  iexact Hg

end Cert.Kernel.Reg0

end
-- ==== Proof.BReg1.lean ====
/-
  The second kernel region: the running sum, down the ten row blocks, of the squared deviations of the
  rows from `alpha` times the column means.  The body keeps the sum in a scratch buffer: it clears it at
  the first grid point, adds the block's column sums of squares at every point, and copies it to the
  output buffer at the last point.  Stated at any float instance and at any contents `V` of the buffers
  at the region's entry.
-/
import proofs.«181132_j3805341024429_1_alg».proof.Proof.Gen.Kernel.Launch
import proofs.«181132_j3805341024429_1_alg».proof.Proof.Gen.Kernel.Skeleton
import proofs.«181132_j3805341024429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the body carries the running sum in. -/
abbrev scM1 : Memref sig .tc .vmem S1x64 .f32 := Memref.whole cc1_scratch0

/-- What the scratch holds after the body at point `n`: the cleared buffer plus the first block's column sums of
    squares at the first point, afterwards what the point before left plus this block's. -/
def acc1 (c : Dev nD) : (n : ℕ) → n < cfg1.N → Vec F S1x64 .f32
  | 0, h => k1_pay2 (iblk1 V c 0 ⟨0, h⟩) (iblk1 V c 2 ⟨0, h⟩) (iblk1 V c 1 ⟨0, h⟩) (k1_pay1 (F := F))
  | n + 1, h => k1_pay2 (iblk1 V c 0 ⟨n + 1, h⟩) (iblk1 V c 2 ⟨n + 1, h⟩) (iblk1 V c 1 ⟨n + 1, h⟩) (acc1 c n (Nat.lt_of_succ_lt h))

/-- The body clears the scratch exactly when the point's coordinate is zero: its first branch condition, from the
    grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)
/-- The body copies the scratch to the output buffer exactly when its second branch condition holds. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-- The whole-buffer rectangle starts at zero. -/
theorem hz : (![0, 0] : Fin 2 → Nat) = fun _ => 0 := funext fun a => by fin_cases a <;> rfl

abbrev rV : Rect S1x64 := Rect.unit (s := S1x64) ![0, 0] S1x64.size inb_S1x64_S1x64_0_0

/-- A list of stores whose last is of the whole [1, 64] buffer covers it. -/
theorem cover1 (p0 : Vec F S1x64 .f32) (L : List (View.Piece (Elt F) S1x64 .f32)) (y : S1x64.Idx) :
    ∃ pc ∈ ((⟨rV, p0⟩ :: L) : List (View.Piece (Elt F) S1x64 .f32)), y ∈ pc.1.set :=
  ⟨_, List.Mem.head _, View.mem_set_unit_zero hz inb_S1x64_S1x64_0_0 y⟩

set_option maxHeartbeats 1000000 in
/-- The body at the first point, on whole memrefs: the clear is taken, the copy-out is not.  The inputs and the output
    buffer keep their contents; the scratch, whatever it held, ends at the block's contribution added to the cleared
    buffer. -/
theorem run_first (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : cond1_0 i) (hc1 : ¬cond1_1 i)
    (x0 : Vec F S5000x64 .f32) (x1 x2 xi3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x2 x1 (k1_pay1 (F := F)))) -∗ K ⟨⟩))
      ⊢ wp frame (wpE (defs₀ (F := F)) Variants.none c none) E (cc1__var_kernel i arg1 harg1 arg2 harg2 arg3 harg3 arg4 harg4 arg5 harg5) K := by
  simp only [cc1__var_kernel_eq_skeleton]; unfold cc1__var_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover1 _ _),
    View.canon_cons_unit_zero (S := S1x64) hz, View.readCov_unit_zero (S := S1x64) _ hz]
  simp only [View.readAt_eq_ld, View.ld_unit_zero (S := S1x64) hz, View.ld_unit_zero (S := S5000x64) hz]

set_option maxHeartbeats 1000000 in
/-- The body at a middle point: neither branch is taken.  The scratch, holding `xs`, ends at the block's contribution
    added to `xs`; everything else keeps its contents. -/
theorem run_mid (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : ¬cond1_1 i)
    (x0 : Vec F S5000x64 .f32) (x1 x2 xi3 xs : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x2 x1 xs)) -∗ K ⟨⟩))
      ⊢ wp frame (wpE (defs₀ (F := F)) Variants.none c none) E (cc1__var_kernel i arg1 harg1 arg2 harg2 arg3 harg3 arg4 harg4 arg5 harg5) K := by
  simp only [cc1__var_kernel_eq_skeleton]; unfold cc1__var_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover1 _ _), View.canon_unit_zero hz]
  simp only [View.readAt_eq_ld, View.ld_unit_zero (S := S1x64) hz, View.ld_unit_zero (S := S5000x64) hz]

set_option maxHeartbeats 1000000 in
/-- The body at the last point: only the copy-out is taken.  The scratch, holding `xs`, ends at the block's
    contribution added to `xs`, and the output buffer, whatever it held, ends at the same. -/
theorem run_last (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : cond1_1 i)
    (x0 : Vec F S5000x64 .f32) (x1 x2 xs : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x2 x1 xs) ∗ owns (c : Thread nD τ) arg5 fullShare (k1_pay2 x0 x2 x1 xs)) -∗ K ⟨⟩))
      ⊢ wp frame (wpE (defs₀ (F := F)) Variants.none c none) E (cc1__var_kernel i arg1 harg1 arg2 harg2 arg3 harg3 arg4 harg4 arg5 harg5) K := by
  simp only [cc1__var_kernel_eq_skeleton]; unfold cc1__var_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1 _ _),
      View.canon_unit_zero hz, View.readCov_unit_zero (S := S1x64) _ hz]
    simp only [View.readAt_eq_ld, View.ld_unit_zero (S := S1x64) hz, View.ld_unit_zero (S := S5000x64) hz]
  iexists _; isplitr
  swap; · iexact HS
  ipureintro
  sl_unfold_words
  rw [View.read_writes_eq_canon _ _ _ (cover1 _ _), View.canon_unit_zero hz]
  simp only [View.readAt_eq_ld, View.ld_unit_zero (S := S1x64) hz, View.ld_unit_zero (S := S5000x64) hz]

/-- The core's scoped buffers that are neither a staging buffer of this call nor its scratch, each at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f))

/-- What the launch hands the region, with the scratch set apart as a memref owned at some contents. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA; rw [scopedRest1_eq]; unfold rest1; simp only [scM1, owns_whole]
  refine BI.equiv_iff.mp ⟨(?_ : (_ : sProp 𝕄) ⊢ _), (?_ : (_ : sProp 𝕄) ⊢ _)⟩
  · iintro ⟨⟨H0, H1, H2, H3, H4, H5, H6, H7, H8, H9, H10, H11, H12, H13, H14, H15, H16, H17, H18, H19, H20, H21, H22, H23⟩, Hg⟩
    isplitl [H14]; · iexact H14
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iintro ⟨H14, ⟨H0, H1, H2, H3, H4, H5, H6, H7, H8, H9, H10, H11, H12, H13, H15, H16, H17, H18, H19, H20, H21, H22, H23⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

/-- The region's invariant before position `n`: at the start what the launch hands the region; afterwards the
    scratch at what the point before left, the core's other scoped buffers at anything, the generator register at
    some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-! An input window's staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The schedule's view of the output window: idle, and not written back, at every point but the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The running sum's two defining equations, at a point of the grid. -/
theorem acc1_first (c : Dev nD) (t : Fin cfg1.N) (h : t.val = 0) :
    acc1 V c t.val t.isLt = k1_pay2 (iblk1 V c 0 t) (iblk1 V c 2 t) (iblk1 V c 1 t) (k1_pay1 (F := F)) := by
  obtain ⟨n, hn⟩ := t
  cases n with
  | zero => rfl
  | succ n => exact absurd h (Nat.succ_ne_zero _)
theorem acc1_next (c : Dev nD) (t : Fin cfg1.N) (h : t.val ≠ 0) :
    acc1 V c t.val t.isLt = k1_pay2 (iblk1 V c 0 t) (iblk1 V c 2 t) (iblk1 V c 1 t)
      (acc1 V c (t.val - 1) (Nat.lt_of_le_of_lt (Nat.sub_le _ _) t.isLt)) := by
  obtain ⟨n, hn⟩ := t
  cases n with
  | zero => exact absurd rfl h
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = acc1 V c t.val t.isLt := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' buffers hold their blocks; the point's position says which of the three
    control cases it is in.  At the first point the invariant hands over the scratch at anything and takes it back
    at the first partial sum; at a later point it hands it over at the previous partial sum and takes it back at
    this point's.  The output buffer is handed back untouched except at the last point, where it receives the
    final sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 10 = 0
  · have hz0 : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [PhiS1_castSucc V c t, PhiS1_zero V c _ _ hz0, PhiA1_eq, acc1_first V c t hz0]
    iintro ⟨⟨HS, Hr, Hg⟩, Ho, ⟨%d0, H0⟩, ⟨%d1, H1⟩, ⟨%d2, H2⟩, ⟨%d3, H3⟩⟩
    iapply (run_first c Set.univ _ _ _ _ _ _ _ _ _ _ _ hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz0 : t.val ≠ 0 := by omega
    have hc0 : ¬cond1_0 (grid1.coords t) := fun h => h0 ((hcond1_0 t).mp h)
    by_cases h1 : t.val % 10 = 9
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [PhiS1_castSucc V c t, PhiS1_pos V c _ _ hz0, acc1_next V c t hz0]
      iintro ⟨⟨HS, Hr, Hg⟩, Ho, ⟨%d0, H0⟩, ⟨%d1, H1⟩, ⟨%d2, H2⟩, ⟨%d3, H3⟩⟩
      iapply (run_last c Set.univ _ _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [PhiS1_castSucc V c t, PhiS1_pos V c _ _ hz0, acc1_next V c t hz0]
      iintro ⟨⟨HS, Hr, Hg⟩, Ho, ⟨%d0, H0⟩, ⟨%d1, H1⟩, ⟨%d2, H2⟩, ⟨%d3, H3⟩⟩
      iapply (run_mid c Set.univ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the scratch's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨HS, Hr, Hg⟩
  isplitl [HS]; · iexists _; iexact HS
  isplitl [Hr]; · iexact Hr
  iexact Hg

end Cert.Kernel.Reg1

end
-- ==== Proof.BReg2.lean ====
/-
  The third kernel region, the pointwise graph normalisation: at every grid point its body reads the
  point's block of rows and the five [1, 64] vectors, and stores one block of results.  What its output
  buffer holds after the body is the body's one stored value of the blocks it loaded; nothing is kept
  between points.  Stated at any float instance and at any contents `V` of the buffers at the region's entry.
-/
import proofs.«181132_j3805341024429_1_alg».proof.Proof.Gen.Kernel.Launch
import proofs.«181132_j3805341024429_1_alg».proof.Proof.Gen.Kernel.Skeleton
import proofs.«181132_j3805341024429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev rB : Rect S5000x64 := Rect.unit (s := S5000x64) ![0, 0] S5000x64.size inb_S5000x64_S5000x64_0_0
abbrev rV : Rect S1x64 := Rect.unit (s := S1x64) ![0, 0] S1x64.size inb_S1x64_S1x64_0_0

/-- The output buffer after the body: its one store, of the value computed from the six loads. -/
def out2_6 (x0 : Vec F S5000x64 .f32) (x1 x2 x3 x4 x5 : Vec F S1x64 .f32) : Vec F S5000x64 .f32 :=
  View.canon [⟨rB, k2_pay1 (View.ld x0 rB) (View.ld x3 rV) (View.ld x1 rV) (View.ld x4 rV) (View.ld x2 rV) (View.ld x5 rV)⟩]

theorem cover2_6 (p0 : Vec F S5000x64 .f32) (y : S5000x64.Idx) :
    ∃ pc ∈ ([⟨rB, p0⟩] : List (View.Piece (Elt F) S5000x64 .f32)), y ∈ pc.1.set :=
  View.cover_of_tiled [⟨rB, p0⟩] S5000x64.size (by rfl) y

set_option maxHeartbeats 1000000 in
/-- The body on whole staging memrefs: the inputs keep their contents, the output ends at `out2_6` of them. -/
theorem sound_kernel2 (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The region's proof data on core `c`: the arrays as the region finds them; after the body each input's
    buffer at its block and the output's at `out2_6` of the input blocks; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d
theorem before2_4 (c : Dev nD) (t : Fin cfg2.N) (d) : (dat2 V c).before 4 t d = iblk2 V c 4 t := before2_4_of V (dat2 V c) (A_eq2 V c 4) (after2_4 V c) t d
theorem before2_5 (c : Dev nD) (t : Fin cfg2.N) (d) : (dat2 V c).before 5 t d = iblk2 V c 5 t := before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg2

end
-- ==== Proof.BRun.lean ====
/-
  The whole program's run: three kernel regions among three stretches of host operations.  Between two
  items the core holds every unscoped buffer at contents named here, a fold from the launch memory:
  each host stretch applies its operations, each region leaves its input arrays as they were and its output
  arrays at what its write-backs leave.  Every weakly fair execution terminates, nothing faulting, with
  every unscoped buffer at the last of these contents; the argument arrays among them are as launched,
  since no operation and no region writes one.  Stated at any float instance.
-/
import proofs.«181132_j3805341024429_1_alg».proof.Proof.Gen.Kernel.Regions
import proofs.«181132_j3805341024429_1_alg».proof.Proof.BReg0
import proofs.«181132_j3805341024429_1_alg».proof.Proof.BReg1
import proofs.«181132_j3805341024429_1_alg».proof.Proof.BReg2

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (Reg0.dat0 (V1 m ρ) c).arrAt w cfg0.N
theorem W2_arr (c : Dev nD) (w : Fin cfg0.W) :
    W2 m ρ c (Proc.devRef .tc (Pipeline.arrRef spec0 w)) = (Reg0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Reg0.dat0 (V1 m ρ) c).arrAt_in w hw _).trans (Reg0.A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (Reg0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, each output's write-backs folded),
    every other buffer as entered. -/
def W4 (c : Dev nD) : Valuation τ sig (Elt F) :=
  Pipeline.withArrays spec1 c (W3 m ρ c) fun w => (Reg1.dat1 (V3 m ρ) c).arrAt w cfg1.N
theorem W4_arr (c : Dev nD) (w : Fin cfg1.W) :
    W4 m ρ c (Proc.devRef .tc (Pipeline.arrRef spec1 w)) = (Reg1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((Reg1.dat1 (V3 m ρ) c).arrAt_in w hw _).trans (Reg1.A_eq1 (V3 m ρ) c w))
/-- The same read at the TensorCore's references. -/
abbrev V4 : (c : Dev nD) → (b : Ref sig .tc) → Buf (Elt F) ((c : Thread nD τ).loc b) := fun c b => W4 m ρ c b
theorem hF1 (c : Dev nD) (w : Fin cfg1.W) : (Reg1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, each output's write-backs folded),
    every other buffer as entered. -/
def W6 (c : Dev nD) : Valuation τ sig (Elt F) :=
  Pipeline.withArrays spec2 c (W5 m ρ c) fun w => (Reg2.dat2 (V5 m ρ) c).arrAt w cfg2.N
theorem W6_arr (c : Dev nD) (w : Fin cfg2.W) :
    W6 m ρ c (Proc.devRef .tc (Pipeline.arrRef spec2 w)) = (Reg2.dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((Reg2.dat2 (V5 m ρ) c).arrAt_in w hw _).trans (Reg2.A_eq2 (V5 m ρ) c w))
/-- The same read at the TensorCore's references. -/
abbrev V6 : (c : Dev nD) → (b : Ref sig .tc) → Buf (Elt F) ((c : Thread nD τ).loc b) := fun c b => W6 m ρ c b
theorem hF2 (c : Dev nD) (w : Fin cfg2.W) : (Reg2.dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_in m ρ c 0 rfl
    _ = W0 m ρ c (Proc.devRef .tc main_arg0) := StableHlo.after_of_writes_sub hostOps0 _ hostOps0_writes (r := main_arg0) (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_in m ρ c 2 rfl
    _ = W0 m ρ c (Proc.devRef .tc main_arg2) := StableHlo.after_of_writes_sub hostOps0 _ hostOps0_writes (r := main_arg2) (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_in m ρ c 5 rfl
    _ = W0 m ρ c (Proc.devRef .tc main_arg5) := StableHlo.after_of_writes_sub hostOps0 _ hostOps0_writes (r := main_arg5) (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (r := main_arg9) (by decide)
    _ = W3 m ρ c (Proc.devRef .tc main_arg9) := W4_of_ne m ρ c main_arg9 (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (r := main_arg10) (by decide)
    _ = W3 m ρ c (Proc.devRef .tc main_arg10) := W4_of_ne m ρ c main_arg10 (by decide)
    _ = W2 m ρ c (Proc.devRef .tc main_arg10) := StableHlo.after_of_writes_sub hostOps1 _ hostOps1_writes (r := main_arg10) (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat0 (V1 m ρ) c
  | ⟨1, _⟩ => fun c => Reg1.dat1 (V3 m ρ) c
  | ⟨2, _⟩ => fun c => Reg2.dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register and the core's other
    scoped buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg0.hin0 (V1 m ρ) c)
    unfold Pipeline.ΦA
    iintro ⟨Hp, -, Hr⟩
    isplitl [Hr]; · iexact Hr
    iexact Hp
  hout c := by
    refine (Reg0.hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register and the core's other
    scoped buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg1.hin1 (V3 m ρ) c)
    unfold Pipeline.ΦA
    iintro ⟨Hp, -, Hr⟩
    isplitl [Hr]; · iexact Hr
    iexact Hp
  hout c := by
    refine (Reg1.hout1 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register and the core's other
    scoped buffers go into the region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- A TensorCore reference's buffer in a final state of the run. -/
theorem run_ref : θ_run defs (onTc (τ := τ) (main (F := F))) ⟨m, fun _ => 0, ρ⟩ (fun r => ∀ c : Dev nD,
      ∀ (b : Ref sig .tc), ¬ (Proc.devRef .tc b : DevRef τ sig).isScoped →
        r.2.mem ((c.tc : Thread nD τ).loc b) = W6 m ρ c (Proc.devRef .tc b)) :=
  (θ_run defs _ _).mono (fun _ h c b hb => h c _ (mem_uc b hb)) (run_all m ρ)

end Cert.Kernel.Run

end
-- ==== Proof.Reg0.lean ====
/-
  The first kernel region: the two-layer network on each block of 5000 rows (the block's own rows times one
  plus its aggregated neighbour rows, then twice a linear map, a layer normalisation and a clamp at zero),
  stored block by block, together with the running column sums of the results.  The body keeps the sums
  in a scratch buffer: it clears it at the first grid point, adds the block's column sums at every point,
  and copies it to the second output buffer at the last point.  Stated at any float instance and at any
  contents `V` of the buffers at the region's entry.
-/
import proofs.«181132_j3805341024429_1_alg».proof.Proof.Gen.KernelIdeal.Launch
import proofs.«181132_j3805341024429_1_alg».proof.Proof.Gen.KernelIdeal.Skeleton
import proofs.«181132_j3805341024429_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffer the body carries the running column sums in. -/
abbrev scM0 : Memref sig .tc .vmem S1x64 .f32 := Memref.whole cc0_scratch0

/-- The word `0.0` the body's second part is handed. -/
abbrev z0 : F .f32 := Scalar.ofBits .f32 0x00000000#32

/-- The first layer's value before its clamp, on point `t`'s blocks. -/
def pre0 (c : Dev nD) (t : Fin cfg0.N) : FVec F S5000x64 .f32 :=
  k0_pay3 (iblk0 V c 0 t) (iblk0 V c 1 t) (iblk0 V c 2 t) (iblk0 V c 3 t) (iblk0 V c 4 t)

/-- The block of results the body stores at point `t`. -/
def hblk0 (c : Dev nD) (t : Fin cfg0.N) : FVec F S5000x64 .f32 :=
  k0_pay4 (pre0 V c t) (z0 (F := F)) (iblk0 V c 5 t) (iblk0 V c 6 t) (iblk0 V c 7 t)

/-- What the scratch holds after the body at point `n`: the cleared buffer plus the first block's column sums at
    the first point, afterwards what the point before left plus this block's. -/
def acc0 (c : Dev nD) : (n : ℕ) → n < cfg0.N → Vec F S1x64 .f32
  | 0, h => k0_pay1 (k0_pay5 (pre0 V c ⟨0, h⟩) (z0 (F := F)) (iblk0 V c 5 ⟨0, h⟩) (iblk0 V c 6 ⟨0, h⟩) (iblk0 V c 7 ⟨0, h⟩) (k0_pay2 (F := F)))
  | n + 1, h => k0_pay1 (k0_pay5 (pre0 V c ⟨n + 1, h⟩) (z0 (F := F)) (iblk0 V c 5 ⟨n + 1, h⟩) (iblk0 V c 6 ⟨n + 1, h⟩) (iblk0 V c 7 ⟨n + 1, h⟩) (acc0 c n (Nat.lt_of_succ_lt h)))

abbrev cond0a (i : grid0.Coords) : Prop := (Scalar.cmpi .ne (Scalar.extui (Scalar.cmpi .eq (BitVec.ofNat 32 (i 0).val) 0#32)) 0#32) = 1#1
abbrev cond0b (i : grid0.Coords) : Prop := k0_cond2 i = 1#1

theorem hz2 : (![0, 0] : Fin 2 → Nat) = fun _ => 0 := funext fun a => by fin_cases a <;> rfl

/-- A buffer whose last store went through the whole-shape rectangle at zero offsets reads that store's value,
    whatever was stored before. -/
theorem read_writes_unit_zero {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

set_option maxHeartbeats 4000000 in
/-- The body at the first point (the clear taken, the copy-out not): the inputs keep their contents, the block of
    results is stored, the scratch ends at the cleared buffer plus this block's column sums. -/
theorem sound_kernel0_A (c : Dev nD) (E : Set ℕ) (i : grid0.Coords) (hc0 : cond0a i) (hc1 : ¬cond0b i)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S5000x64 .f32) (harg9 : arg9.IsWhole) (arg10 : Memref sig .tc .vmem S1x64 .f32) (harg10 : arg10.IsWhole)
    (arg11 : Memref sig .tc .vmem S1x64 .f32) (harg11 : arg11.IsWhole)
    (x0 x1 : Vec F S5000x64 .f32) (x2 : Vec F S64x64 .f32) (x3 x4 : Vec F S1x64 .f32) (x5 : Vec F S64x64 .f32) (x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay4 (k0_pay3 x0 x1 x2 x3 x4) (z0 (F := F)) x5 x6 x7)
            ∗ owns (c : Thread nD τ) arg11 fullShare (k0_pay1 (k0_pay5 (k0_pay3 x0 x1 x2 x3 x4) (z0 (F := F)) x5 x6 x7 (k0_pay2 (F := F))))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  iexists _; isplitr
  swap; · iexact HS
  ipureintro
  refine (read_writes_unit_zero _ _ hz2 _ _ _).trans ?_
  dsimp only; sl_unfold_words
  simp only [View.readAt_eq_ld, View.ld_unit_zero (S := S5000x64) hz2, View.ld_unit_zero (S := S64x64) hz2, View.ld_unit_zero (S := S1x64) hz2, View.readCov_unit_zero (S := S1x64) _ hz2]

set_option maxHeartbeats 4000000 in
/-- The body at a middle point (neither branch taken): the scratch ends at what it held plus this block's column sums. -/
theorem sound_kernel0_B (c : Dev nD) (E : Set ℕ) (i : grid0.Coords) (hc0 : ¬cond0a i) (hc1 : ¬cond0b i)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S5000x64 .f32) (harg9 : arg9.IsWhole) (arg10 : Memref sig .tc .vmem S1x64 .f32) (harg10 : arg10.IsWhole)
    (arg11 : Memref sig .tc .vmem S1x64 .f32) (harg11 : arg11.IsWhole)
    (x0 x1 : Vec F S5000x64 .f32) (x2 : Vec F S64x64 .f32) (x3 x4 : Vec F S1x64 .f32) (x5 : Vec F S64x64 .f32) (x6 x7 : Vec F S1x64 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay4 (k0_pay3 x0 x1 x2 x3 x4) (z0 (F := F)) x5 x6 x7)
            ∗ owns (c : Thread nD τ) arg11 fullShare (k0_pay1 (k0_pay5 (k0_pay3 x0 x1 x2 x3 x4) (z0 (F := F)) x5 x6 x7 xs))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  iexists _; isplitr
  swap; · iexact HS
  ipureintro
  refine (read_writes_unit_zero _ _ hz2 _ _ _).trans ?_
  dsimp only; sl_unfold_words
  simp only [View.readAt_eq_ld, View.ld_unit_zero (S := S5000x64) hz2, View.ld_unit_zero (S := S64x64) hz2, View.ld_unit_zero (S := S1x64) hz2, View.readCov_unit_zero (S := S1x64) _ hz2]

set_option maxHeartbeats 4000000 in
/-- The body at the last point (only the copy-out taken): as at a middle point, and the buffer of column sums ends
    at what the scratch ends at. -/
theorem sound_kernel0_C (c : Dev nD) (E : Set ℕ) (i : grid0.Coords) (hc0 : ¬cond0a i) (hc1 : cond0b i)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S5000x64 .f32) (harg9 : arg9.IsWhole) (arg10 : Memref sig .tc .vmem S1x64 .f32) (harg10 : arg10.IsWhole)
    (arg11 : Memref sig .tc .vmem S1x64 .f32) (harg11 : arg11.IsWhole)
    (x0 x1 : Vec F S5000x64 .f32) (x2 : Vec F S64x64 .f32) (x3 x4 : Vec F S1x64 .f32) (x5 : Vec F S64x64 .f32) (x6 x7 : Vec F S1x64 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay4 (k0_pay3 x0 x1 x2 x3 x4) (z0 (F := F)) x5 x6 x7)
            ∗ owns (c : Thread nD τ) arg10 fullShare (k0_pay1 (k0_pay5 (k0_pay3 x0 x1 x2 x3 x4) (z0 (F := F)) x5 x6 x7 xs))
            ∗ owns (c : Thread nD τ) arg11 fullShare (k0_pay1 (k0_pay5 (k0_pay3 x0 x1 x2 x3 x4) (z0 (F := F)) x5 x6 x7 xs))) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  isplitl [H9]
  · iexists _; isplitr
    swap; · iexact H9
    ipureintro
    refine (read_writes_unit_zero _ _ hz2 _ _ _).trans ?_
    dsimp only; sl_unfold_words
    simp only [View.readAt_eq_ld, View.ld_unit_zero (S := S5000x64) hz2, View.ld_unit_zero (S := S64x64) hz2, View.ld_unit_zero (S := S1x64) hz2, View.readCov_unit_zero (S := S1x64) _ hz2]
  iexists _; isplitr
  swap; · iexact HS
  ipureintro
  refine (read_writes_unit_zero _ _ hz2 _ _ _).trans ?_
  dsimp only; sl_unfold_words
  simp only [View.readAt_eq_ld, View.ld_unit_zero (S := S5000x64) hz2, View.ld_unit_zero (S := S64x64) hz2, View.ld_unit_zero (S := S1x64) hz2, View.readCov_unit_zero (S := S1x64) _ hz2]

/-! An input window's staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The core's scoped buffers that are neither a staging buffer of this call nor its scratch, each at anything. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- The region's invariant before position `n`: at the start what the launch hands the region; afterwards the
    scratch at what the point before left, the core's other scoped buffers at anything, the generator register at
    some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

/-- After point `n`: the scratch at that point's contents. -/
theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

/-- Before a point that is not the first: the scratch at what the point before left. -/
theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

/-- What the launch hands the region, with the scratch as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The scratch after the first point: the cleared buffer plus the first block's column sums. -/
theorem acc0_first (c : Dev nD) (t : Fin cfg0.N) (hz : t.val = 0) :
    acc0 V c t.val t.isLt = k0_pay1 (k0_pay5 (pre0 V c t) (z0 (F := F)) (iblk0 V c 5 t) (iblk0 V c 6 t) (iblk0 V c 7 t) (k0_pay2 (F := F))) := by
  obtain ⟨n, hn⟩ := t
  cases n with
  | zero => rfl
  | succ n => exact absurd hz (Nat.succ_ne_zero n)

/-- The scratch after a later point: what the point before left plus this block's column sums. -/
theorem acc0_later (c : Dev nD) (t : Fin cfg0.N) (hz : t.val ≠ 0) :
    acc0 V c t.val t.isLt = k0_pay1 (k0_pay5 (pre0 V c t) (z0 (F := F)) (iblk0 V c 5 t) (iblk0 V c 6 t) (iblk0 V c 7 t)
      (acc0 V c (t.val - 1) (Nat.lt_of_le_of_lt (Nat.sub_le _ _) t.isLt))) := by
  obtain ⟨n, hn⟩ := t
  cases n with
  | zero => exact absurd rfl hz
  | succ n => rfl

/-- The clear is taken at the first point only, -/
theorem hcond0a : ∀ t : Fin cfg0.N, cond0a (grid0.coords t) ↔ t.val % 10 = 0 :=
  (by decide +kernel : ∀ t : Fin grid0.N, cond0a (grid0.coords t) ↔ t.val % 10 = 0)
/-- the copy-out at the last point only. -/
theorem hcond0b : ∀ t : Fin cfg0.N, cond0b (grid0.coords t) ↔ t.val % 10 = 9 :=
  (by decide +kernel : ∀ t : Fin grid0.N, cond0b (grid0.coords t) ↔ t.val % 10 = 9)
/-- Where the copy-out is not taken the window of column sums is idle and not written back; -/
theorem idleAt0_9 : ∀ t : Fin cfg0.N, ¬cond0b (grid0.coords t) → cfg0.idle 9 (grid0.coords t) = true := by decide +kernel
theorem noFlush0_9 : ∀ t : Fin cfg0.N, ¬cond0b (grid0.coords t) → (cfg0.win 9).flush t = false := by decide +kernel
/-- where it is taken the window is live. -/
theorem liveAt0_9 : ∀ t : Fin cfg0.N, cond0b (grid0.coords t) → cfg0.idle 9 (grid0.coords t) = false := by decide +kernel

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => hblk0 V c t
    | ⟨9, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = hblk0 V c t := by dsimp only [dat0]
theorem after0_9 (c : Dev nD) (t : Fin cfg0.N) : (dat0 V c).after 9 t = acc0 V c t.val t.isLt := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d

theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ (dat0 V c).leavesExact 9 t)

set_option maxHeartbeats 4000000 in
/-- The body at any point.  The inputs' buffers hold their blocks; the point is the first, a middle one or the
    last; the invariant hands the body the scratch (at anything at the first point, else at what the point before
    left) and takes it back at this point's contents; the window of column sums is handed back untouched except at
    the last point, where it ends at the scratch's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  have hN : t.val < 10 := lt_of_lt_of_eq t.isLt (show cfg0.N = 10 from N_0)
  by_cases h0 : t.val % 10 = 0
  · have hz : t.val = 0 := by omega
    have hb : ¬t.val % 10 = 9 := by omega
    rw [Dat.leavesExact_idle (dat0 V c) 9 t (idleAt0_9 t (fun h => hb ((hcond0b t).mp h))) (noFlush0_9 t (fun h => hb ((hcond0b t).mp h)))]
    rw [acc0_first V c t hz]
    rw [PhiS0_castSucc V c t, PhiS0_zero V c _ _ hz, PhiA0_eq]
    unfold hblk0 pre0
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (sound_kernel0_A c Set.univ _ ((hcond0a t).mpr h0) (fun h => hb ((hcond0b t).mp h)) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := by omega
    by_cases h1 : t.val % 10 = 9
    · rw [show (dat0 V c).leavesExact 9 t = owns (c : Thread nD τ) (st0_9 t) fullShare ((dat0 V c).after 9 t) from by
        unfold Dat.leavesExact; rw [liveAt0_9 t ((hcond0b t).mpr h1)], after0_9]
      rw [acc0_later V c t hz]
      rw [PhiS0_castSucc V c t, PhiS0_pos V c _ _ hz]
      unfold hblk0 pre0
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel0_C c Set.univ _ (fun h => h0 ((hcond0a t).mp h)) ((hcond0b t).mpr h1) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hb : ¬t.val % 10 = 9 := h1
      rw [Dat.leavesExact_idle (dat0 V c) 9 t (idleAt0_9 t (fun h => hb ((hcond0b t).mp h))) (noFlush0_9 t (fun h => hb ((hcond0b t).mp h)))]
      rw [acc0_later V c t hz]
      rw [PhiS0_castSucc V c t, PhiS0_pos V c _ _ hz]
      unfold hblk0 pre0
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
      iapply (sound_kernel0_B c Set.univ _ (fun h => h0 ((hcond0a t).mp h)) (fun h => hb ((hcond0b t).mp h)) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives back what the launch handed over. -/
theorem hout0 (c : Dev nD) : (dat0 V c).Φ (Fin.last cfg0.N) ⊢ (Pipeline.ΦA spec0 c : sProp 𝕄) := by
  have hN : (Fin.last cfg0.N).val ≠ 0 := by rw [Fin.val_last]; have : cfg0.N = 10 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨HS, Hr, Hg⟩
  isplitl [HS Hr]
  · isplitl [HS]; · iexists _; iexact HS
    iexact Hr
  iexact Hg

end Cert.KernelIdeal.Reg0

end
-- ==== Proof.Reg1.lean ====
/-
  The second kernel region: the running sum, down the ten row blocks, of the squared deviations of the
  rows from `alpha` times the column means.  The body keeps the sum in a scratch buffer: it clears it at
  the first grid point, adds the block's column sums of squares at every point, and copies it to the
  output buffer at the last point.  Stated at any float instance and at any contents `V` of the buffers
  at the region's entry.
-/
import proofs.«181132_j3805341024429_1_alg».proof.Proof.Gen.KernelIdeal.Launch
import proofs.«181132_j3805341024429_1_alg».proof.Proof.Gen.KernelIdeal.Skeleton
import proofs.«181132_j3805341024429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the body carries the running sum in. -/
abbrev scM1 : Memref sig .tc .vmem S1x64 .f32 := Memref.whole cc1_scratch0

/-- What the scratch holds after the body at point `n`: the cleared buffer plus the first block's column sums of
    squares at the first point, afterwards what the point before left plus this block's. -/
def acc1 (c : Dev nD) : (n : ℕ) → n < cfg1.N → Vec F S1x64 .f32
  | 0, h => k1_pay2 (iblk1 V c 0 ⟨0, h⟩) (iblk1 V c 2 ⟨0, h⟩) (iblk1 V c 1 ⟨0, h⟩) (k1_pay1 (F := F))
  | n + 1, h => k1_pay2 (iblk1 V c 0 ⟨n + 1, h⟩) (iblk1 V c 2 ⟨n + 1, h⟩) (iblk1 V c 1 ⟨n + 1, h⟩) (acc1 c n (Nat.lt_of_succ_lt h))

/-- The body clears the scratch exactly when the point's coordinate is zero: its first branch condition, from the
    grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)
/-- The body copies the scratch to the output buffer exactly when its second branch condition holds. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-- The whole-buffer rectangle starts at zero. -/
theorem hz : (![0, 0] : Fin 2 → Nat) = fun _ => 0 := funext fun a => by fin_cases a <;> rfl

abbrev rV : Rect S1x64 := Rect.unit (s := S1x64) ![0, 0] S1x64.size inb_S1x64_S1x64_0_0

/-- A list of stores whose last is of the whole [1, 64] buffer covers it. -/
theorem cover1 (p0 : Vec F S1x64 .f32) (L : List (View.Piece (Elt F) S1x64 .f32)) (y : S1x64.Idx) :
    ∃ pc ∈ ((⟨rV, p0⟩ :: L) : List (View.Piece (Elt F) S1x64 .f32)), y ∈ pc.1.set :=
  ⟨_, List.Mem.head _, View.mem_set_unit_zero hz inb_S1x64_S1x64_0_0 y⟩

set_option maxHeartbeats 1000000 in
/-- The body at the first point, on whole memrefs: the clear is taken, the copy-out is not.  The inputs and the output
    buffer keep their contents; the scratch, whatever it held, ends at the block's contribution added to the cleared
    buffer. -/
theorem run_first (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : cond1_0 i) (hc1 : ¬cond1_1 i)
    (x0 : Vec F S5000x64 .f32) (x1 x2 xi3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x2 x1 (k1_pay1 (F := F)))) -∗ K ⟨⟩))
      ⊢ wp frame (wpE (defs₀ (F := F)) Variants.none c none) E (cc1__var_kernel i arg1 harg1 arg2 harg2 arg3 harg3 arg4 harg4 arg5 harg5) K := by
  simp only [cc1__var_kernel_eq_skeleton]; unfold cc1__var_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover1 _ _),
    View.canon_cons_unit_zero (S := S1x64) hz, View.readCov_unit_zero (S := S1x64) _ hz]
  simp only [View.readAt_eq_ld, View.ld_unit_zero (S := S1x64) hz, View.ld_unit_zero (S := S5000x64) hz]

set_option maxHeartbeats 1000000 in
/-- The body at a middle point: neither branch is taken.  The scratch, holding `xs`, ends at the block's contribution
    added to `xs`; everything else keeps its contents. -/
theorem run_mid (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : ¬cond1_1 i)
    (x0 : Vec F S5000x64 .f32) (x1 x2 xi3 xs : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x2 x1 xs)) -∗ K ⟨⟩))
      ⊢ wp frame (wpE (defs₀ (F := F)) Variants.none c none) E (cc1__var_kernel i arg1 harg1 arg2 harg2 arg3 harg3 arg4 harg4 arg5 harg5) K := by
  simp only [cc1__var_kernel_eq_skeleton]; unfold cc1__var_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover1 _ _), View.canon_unit_zero hz]
  simp only [View.readAt_eq_ld, View.ld_unit_zero (S := S1x64) hz, View.ld_unit_zero (S := S5000x64) hz]

set_option maxHeartbeats 1000000 in
/-- The body at the last point: only the copy-out is taken.  The scratch, holding `xs`, ends at the block's
    contribution added to `xs`, and the output buffer, whatever it held, ends at the same. -/
theorem run_last (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : cond1_1 i)
    (x0 : Vec F S5000x64 .f32) (x1 x2 xs : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x2 x1 xs) ∗ owns (c : Thread nD τ) arg5 fullShare (k1_pay2 x0 x2 x1 xs)) -∗ K ⟨⟩))
      ⊢ wp frame (wpE (defs₀ (F := F)) Variants.none c none) E (cc1__var_kernel i arg1 harg1 arg2 harg2 arg3 harg3 arg4 harg4 arg5 harg5) K := by
  simp only [cc1__var_kernel_eq_skeleton]; unfold cc1__var_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1 _ _),
      View.canon_unit_zero hz, View.readCov_unit_zero (S := S1x64) _ hz]
    simp only [View.readAt_eq_ld, View.ld_unit_zero (S := S1x64) hz, View.ld_unit_zero (S := S5000x64) hz]
  iexists _; isplitr
  swap; · iexact HS
  ipureintro
  sl_unfold_words
  rw [View.read_writes_eq_canon _ _ _ (cover1 _ _), View.canon_unit_zero hz]
  simp only [View.readAt_eq_ld, View.ld_unit_zero (S := S1x64) hz, View.ld_unit_zero (S := S5000x64) hz]

/-- The core's scoped buffers that are neither a staging buffer of this call nor its scratch, each at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg6_0), ((c : Thread nD τ).loc cc2_stg6_0) ↦{fullShare} f)
      ∗ (∃ f : Buf (Elt F) ((c : Thread nD τ).loc cc2_stg6_1), ((c : Thread nD τ).loc cc2_stg6_1) ↦{fullShare} f))

/-- What the launch hands the region, with the scratch set apart as a memref owned at some contents. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA; rw [scopedRest1_eq]; unfold rest1; simp only [scM1, owns_whole]
  refine BI.equiv_iff.mp ⟨(?_ : (_ : sProp 𝕄) ⊢ _), (?_ : (_ : sProp 𝕄) ⊢ _)⟩
  · iintro ⟨⟨H0, H1, H2, H3, H4, H5, H6, H7, H8, H9, H10, H11, H12, H13, H14, H15, H16, H17, H18, H19, H20, H21, H22, H23⟩, Hg⟩
    isplitl [H14]; · iexact H14
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iintro ⟨H14, ⟨H0, H1, H2, H3, H4, H5, H6, H7, H8, H9, H10, H11, H12, H13, H15, H16, H17, H18, H19, H20, H21, H22, H23⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

/-- The region's invariant before position `n`: at the start what the launch hands the region; afterwards the
    scratch at what the point before left, the core's other scoped buffers at anything, the generator register at
    some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-! An input window's staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The schedule's view of the output window: idle, and not written back, at every point but the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The running sum's two defining equations, at a point of the grid. -/
theorem acc1_first (c : Dev nD) (t : Fin cfg1.N) (h : t.val = 0) :
    acc1 V c t.val t.isLt = k1_pay2 (iblk1 V c 0 t) (iblk1 V c 2 t) (iblk1 V c 1 t) (k1_pay1 (F := F)) := by
  obtain ⟨n, hn⟩ := t
  cases n with
  | zero => rfl
  | succ n => exact absurd h (Nat.succ_ne_zero _)
theorem acc1_next (c : Dev nD) (t : Fin cfg1.N) (h : t.val ≠ 0) :
    acc1 V c t.val t.isLt = k1_pay2 (iblk1 V c 0 t) (iblk1 V c 2 t) (iblk1 V c 1 t)
      (acc1 V c (t.val - 1) (Nat.lt_of_le_of_lt (Nat.sub_le _ _) t.isLt)) := by
  obtain ⟨n, hn⟩ := t
  cases n with
  | zero => exact absurd rfl h
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = acc1 V c t.val t.isLt := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' buffers hold their blocks; the point's position says which of the three
    control cases it is in.  At the first point the invariant hands over the scratch at anything and takes it back
    at the first partial sum; at a later point it hands it over at the previous partial sum and takes it back at
    this point's.  The output buffer is handed back untouched except at the last point, where it receives the
    final sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 10 = 0
  · have hz0 : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [PhiS1_castSucc V c t, PhiS1_zero V c _ _ hz0, PhiA1_eq, acc1_first V c t hz0]
    iintro ⟨⟨HS, Hr, Hg⟩, Ho, ⟨%d0, H0⟩, ⟨%d1, H1⟩, ⟨%d2, H2⟩, ⟨%d3, H3⟩⟩
    iapply (run_first c Set.univ _ _ _ _ _ _ _ _ _ _ _ hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz0 : t.val ≠ 0 := by omega
    have hc0 : ¬cond1_0 (grid1.coords t) := fun h => h0 ((hcond1_0 t).mp h)
    by_cases h1 : t.val % 10 = 9
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [PhiS1_castSucc V c t, PhiS1_pos V c _ _ hz0, acc1_next V c t hz0]
      iintro ⟨⟨HS, Hr, Hg⟩, Ho, ⟨%d0, H0⟩, ⟨%d1, H1⟩, ⟨%d2, H2⟩, ⟨%d3, H3⟩⟩
      iapply (run_last c Set.univ _ _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [PhiS1_castSucc V c t, PhiS1_pos V c _ _ hz0, acc1_next V c t hz0]
      iintro ⟨⟨HS, Hr, Hg⟩, Ho, ⟨%d0, H0⟩, ⟨%d1, H1⟩, ⟨%d2, H2⟩, ⟨%d3, H3⟩⟩
      iapply (run_mid c Set.univ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the scratch's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨HS, Hr, Hg⟩
  isplitl [HS]; · iexists _; iexact HS
  isplitl [Hr]; · iexact Hr
  iexact Hg

end Cert.KernelIdeal.Reg1

end
-- ==== Proof.Reg2.lean ====
/-
  The third kernel region, the pointwise graph normalisation: at every grid point its body reads the
  point's block of rows and the five [1, 64] vectors, and stores one block of results.  What its output
  buffer holds after the body is the body's one stored value of the blocks it loaded; nothing is kept
  between points.  Stated at any float instance and at any contents `V` of the buffers at the region's entry.
-/
import proofs.«181132_j3805341024429_1_alg».proof.Proof.Gen.KernelIdeal.Launch
import proofs.«181132_j3805341024429_1_alg».proof.Proof.Gen.KernelIdeal.Skeleton
import proofs.«181132_j3805341024429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev rB : Rect S5000x64 := Rect.unit (s := S5000x64) ![0, 0] S5000x64.size inb_S5000x64_S5000x64_0_0
abbrev rV : Rect S1x64 := Rect.unit (s := S1x64) ![0, 0] S1x64.size inb_S1x64_S1x64_0_0

/-- The output buffer after the body: its one store, of the value computed from the six loads. -/
def out2_6 (x0 : Vec F S5000x64 .f32) (x1 x2 x3 x4 x5 : Vec F S1x64 .f32) : Vec F S5000x64 .f32 :=
  View.canon [⟨rB, k2_pay1 (View.ld x0 rB) (View.ld x3 rV) (View.ld x1 rV) (View.ld x4 rV) (View.ld x2 rV) (View.ld x5 rV)⟩]

theorem cover2_6 (p0 : Vec F S5000x64 .f32) (y : S5000x64.Idx) :
    ∃ pc ∈ ([⟨rB, p0⟩] : List (View.Piece (Elt F) S5000x64 .f32)), y ∈ pc.1.set :=
  View.cover_of_tiled [⟨rB, p0⟩] S5000x64.size (by rfl) y

set_option maxHeartbeats 1000000 in
/-- The body on whole staging memrefs: the inputs keep their contents, the output ends at `out2_6` of them. -/
theorem sound_kernel2 (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The region's proof data on core `c`: the arrays as the region finds them; after the body each input's
    buffer at its block and the output's at `out2_6` of the input blocks; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d
theorem before2_4 (c : Dev nD) (t : Fin cfg2.N) (d) : (dat2 V c).before 4 t d = iblk2 V c 4 t := before2_4_of V (dat2 V c) (A_eq2 V c 4) (after2_4 V c) t d
theorem before2_5 (c : Dev nD) (t : Fin cfg2.N) (d) : (dat2 V c).before 5 t d = iblk2 V c 5 t := before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg2

end
-- ==== Proof.Run.lean ====
/-
  The whole program's run: three kernel regions among three stretches of host operations.  Between two
  items the core holds every unscoped buffer at contents named here, a fold from the launch memory:
  each host stretch applies its operations, each region leaves its input arrays as they were and its output
  arrays at what its write-backs leave.  Every weakly fair execution terminates, nothing faulting, with
  every unscoped buffer at the last of these contents; the argument arrays among them are as launched,
  since no operation and no region writes one.  Stated at any float instance.
-/
import proofs.«181132_j3805341024429_1_alg».proof.Proof.Gen.KernelIdeal.Regions
import proofs.«181132_j3805341024429_1_alg».proof.Proof.Reg0
import proofs.«181132_j3805341024429_1_alg».proof.Proof.Reg1
import proofs.«181132_j3805341024429_1_alg».proof.Proof.Reg2

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (Reg0.dat0 (V1 m ρ) c).arrAt w cfg0.N
theorem W2_arr (c : Dev nD) (w : Fin cfg0.W) :
    W2 m ρ c (Proc.devRef .tc (Pipeline.arrRef spec0 w)) = (Reg0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Reg0.dat0 (V1 m ρ) c).arrAt_in w hw _).trans (Reg0.A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (Reg0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, each output's write-backs folded),
    every other buffer as entered. -/
def W4 (c : Dev nD) : Valuation τ sig (Elt F) :=
  Pipeline.withArrays spec1 c (W3 m ρ c) fun w => (Reg1.dat1 (V3 m ρ) c).arrAt w cfg1.N
theorem W4_arr (c : Dev nD) (w : Fin cfg1.W) :
    W4 m ρ c (Proc.devRef .tc (Pipeline.arrRef spec1 w)) = (Reg1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((Reg1.dat1 (V3 m ρ) c).arrAt_in w hw _).trans (Reg1.A_eq1 (V3 m ρ) c w))
/-- The same read at the TensorCore's references. -/
abbrev V4 : (c : Dev nD) → (b : Ref sig .tc) → Buf (Elt F) ((c : Thread nD τ).loc b) := fun c b => W4 m ρ c b
theorem hF1 (c : Dev nD) (w : Fin cfg1.W) : (Reg1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, each output's write-backs folded),
    every other buffer as entered. -/
def W6 (c : Dev nD) : Valuation τ sig (Elt F) :=
  Pipeline.withArrays spec2 c (W5 m ρ c) fun w => (Reg2.dat2 (V5 m ρ) c).arrAt w cfg2.N
theorem W6_arr (c : Dev nD) (w : Fin cfg2.W) :
    W6 m ρ c (Proc.devRef .tc (Pipeline.arrRef spec2 w)) = (Reg2.dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((Reg2.dat2 (V5 m ρ) c).arrAt_in w hw _).trans (Reg2.A_eq2 (V5 m ρ) c w))
/-- The same read at the TensorCore's references. -/
abbrev V6 : (c : Dev nD) → (b : Ref sig .tc) → Buf (Elt F) ((c : Thread nD τ).loc b) := fun c b => W6 m ρ c b
theorem hF2 (c : Dev nD) (w : Fin cfg2.W) : (Reg2.dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_in m ρ c 0 rfl
    _ = W0 m ρ c (Proc.devRef .tc main_arg0) := StableHlo.after_of_writes_sub hostOps0 _ hostOps0_writes (r := main_arg0) (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_in m ρ c 2 rfl
    _ = W0 m ρ c (Proc.devRef .tc main_arg2) := StableHlo.after_of_writes_sub hostOps0 _ hostOps0_writes (r := main_arg2) (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_in m ρ c 5 rfl
    _ = W0 m ρ c (Proc.devRef .tc main_arg5) := StableHlo.after_of_writes_sub hostOps0 _ hostOps0_writes (r := main_arg5) (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (r := main_arg9) (by decide)
    _ = W3 m ρ c (Proc.devRef .tc main_arg9) := W4_of_ne m ρ c main_arg9 (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (r := main_arg10) (by decide)
    _ = W3 m ρ c (Proc.devRef .tc main_arg10) := W4_of_ne m ρ c main_arg10 (by decide)
    _ = W2 m ρ c (Proc.devRef .tc main_arg10) := StableHlo.after_of_writes_sub hostOps1 _ hostOps1_writes (r := main_arg10) (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat0 (V1 m ρ) c
  | ⟨1, _⟩ => fun c => Reg1.dat1 (V3 m ρ) c
  | ⟨2, _⟩ => fun c => Reg2.dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register and the core's other
    scoped buffers go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg0.hin0 (V1 m ρ) c)
    unfold Pipeline.ΦA
    iintro ⟨Hp, -, Hr⟩
    isplitl [Hr]; · iexact Hr
    iexact Hp
  hout c := by
    refine (Reg0.hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register and the core's other
    scoped buffers go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg1.hin1 (V3 m ρ) c)
    unfold Pipeline.ΦA
    iintro ⟨Hp, -, Hr⟩
    isplitl [Hr]; · iexact Hr
    iexact Hp
  hout c := by
    refine (Reg1.hout1 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register and the core's other
    scoped buffers go into the region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- A TensorCore reference's buffer in a final state of the run. -/
theorem run_ref : θ_run defs (onTc (τ := τ) (main (F := F))) ⟨m, fun _ => 0, ρ⟩ (fun r => ∀ c : Dev nD,
      ∀ (b : Ref sig .tc), ¬ (Proc.devRef .tc b : DevRef τ sig).isScoped →
        r.2.mem ((c.tc : Thread nD τ).loc b) = W6 m ρ c (Proc.devRef .tc b)) :=
  (θ_run defs _ _).mono (fun _ h c b hb => h c _ (mem_uc b hb)) (run_all m ρ)

end Cert.KernelIdeal.Run

end
-- ==== Proof.Spec.lean ====
/-
  The function both programs compute, row by row and column by column, on the extended reals.

  A node's feature row `x r` and its aggregated neighbour row `a r` give `h r = x r * 1 + a r`; two
  layers follow, each a bias-free linear map `v j = ∑ k, h k * W j k`, a layer normalisation over the
  row's 64 entries (mean and mean of squared deviations by division by 64, the reciprocal square root of
  the variance plus epsilon, a per-column scale and shift) and a clamp at zero.  The graph normalisation
  then works down each COLUMN of the 50000 resulting rows: the column's mean, the deviations from
  `alpha` times that mean, the mean of their squares, and the scaled, shifted, normalised deviation.
  The constants are kept as the binary words both programs carry; nothing here evaluates them.
-/
import Idealize.ShloMosaic.PureOps.Ideal
import Idealize.ShloMosaic.Lib.ValueIdx

noncomputable section

namespace Cert.Spec

open Idealize.ShloMosaic Idealize.ShloMosaic.ValueIdx

/-- The row width, as the extended real the word `64.0` denotes. -/
def c64 : EReal := Ideal.ofBits .f32 0x42800000#32
/-- The number of rows, as the extended real the word `50000.0` denotes. -/
def cN : EReal := Ideal.ofBits .f32 0x47435000#32
/-- The epsilon of both normalisations, the word both programs carry. -/
def eps : EReal := Ideal.ofBits .f32 0x3727C5AC#32
/-- The word `1.0`. -/
def one : EReal := Ideal.ofBits .f32 0x3F800000#32
/-- The word `0.0` the clamp compares with. -/
def zero : EReal := Ideal.ofBits .f32 0x00000000#32

/-- A bias-free linear layer on a row: column `j` is the row against row `j` of the weight matrix. -/
def lin (W : Fin 64 → Fin 64 → EReal) (h : Fin 64 → EReal) : Fin 64 → EReal :=
  fun j => ∑ k : Fin 64, h k * W j k

/-- The mean of a row's 64 entries. -/
def rowMean (v : Fin 64 → EReal) : EReal := Ideal.div (∑ k : Fin 64, v k) c64

/-- A row's deviations from its mean. -/
def rowDev (v : Fin 64 → EReal) : Fin 64 → EReal := fun j => v j - rowMean v

/-- The mean of the squared deviations. -/
def rowVar (v : Fin 64 → EReal) : EReal := Ideal.div (∑ k : Fin 64, rowDev v k * rowDev v k) c64

/-- Layer normalisation of a row with scale `lw` and shift `lb`. -/
def lnorm (lw lb : Fin 64 → EReal) (v : Fin 64 → EReal) : Fin 64 → EReal :=
  fun j => rowDev v j * Ideal.rsqrt (rowVar v + eps) * lw j + lb j

/-- The clamp at zero. -/
def relu (v : Fin 64 → EReal) : Fin 64 → EReal := fun j => max (v j) zero

/-- One layer: linear map, layer normalisation, clamp. -/
def layer (W : Fin 64 → Fin 64 → EReal) (lw lb : Fin 64 → EReal) (h : Fin 64 → EReal) : Fin 64 → EReal :=
  relu (lnorm lw lb (lin W h))

/-- The two-layer network on one node: its own row times one plus its aggregated neighbours' row. -/
def mlpRow (W0 : Fin 64 → Fin 64 → EReal) (lw0 lb0 : Fin 64 → EReal) (W1 : Fin 64 → Fin 64 → EReal)
    (lw1 lb1 : Fin 64 → EReal) (x a : Fin 64 → EReal) : Fin 64 → EReal :=
  layer W1 lw1 lb1 (layer W0 lw0 lb0 (fun k => x k * one + a k))

/-- A column's mean over the 50000 rows. -/
def colMean (H : Fin 50000 → Fin 64 → EReal) (j : Fin 64) : EReal := Ideal.div (∑ r : Fin 50000, H r j) cN

/-- The deviation of an entry from `alpha` times its column's mean. -/
def colDev (H : Fin 50000 → Fin 64 → EReal) (ga : Fin 64 → EReal) (r : Fin 50000) (j : Fin 64) : EReal :=
  H r j - ga j * colMean H j

/-- The mean of a column's squared deviations. -/
def colVar (H : Fin 50000 → Fin 64 → EReal) (ga : Fin 64 → EReal) (j : Fin 64) : EReal :=
  Ideal.div (∑ r : Fin 50000, colDev H ga r j * colDev H ga r j) cN

/-- The graph normalisation of the rows `H`, entry by entry. -/
def gnorm (H : Fin 50000 → Fin 64 → EReal) (gw gb ga : Fin 64 → EReal) (r : Fin 50000) (j : Fin 64) : EReal :=
  gw j * colDev H ga r j * Ideal.rsqrt (colVar H ga j + eps) + gb j

/-- The rows after the two layers, from the argument arrays (the aggregated rows `A` a parameter). -/
def rows (X A : (⟨2, ![50000, 64]⟩ : Shape).Idx → EReal) (W0 : (⟨2, ![64, 64]⟩ : Shape).Idx → EReal)
    (lw0 lb0 : (⟨1, ![64]⟩ : Shape).Idx → EReal) (W1 : (⟨2, ![64, 64]⟩ : Shape).Idx → EReal)
    (lw1 lb1 : (⟨1, ![64]⟩ : Shape).Idx → EReal) (r : Fin 50000) : Fin 64 → EReal :=
  mlpRow (fun j k => W0 (ix2 j k)) (fun j => lw0 (ix1 j)) (fun j => lb0 (ix1 j))
    (fun j k => W1 (ix2 j k)) (fun j => lw1 (ix1 j)) (fun j => lb1 (ix1 j))
    (fun k => X (ix2 r k)) (fun k => A (ix2 r k))

/-- The whole result, an array over [50000, 64]. -/
def out (X A : (⟨2, ![50000, 64]⟩ : Shape).Idx → EReal) (W0 : (⟨2, ![64, 64]⟩ : Shape).Idx → EReal)
    (lw0 lb0 : (⟨1, ![64]⟩ : Shape).Idx → EReal) (W1 : (⟨2, ![64, 64]⟩ : Shape).Idx → EReal)
    (lw1 lb1 gw gb ga : (⟨1, ![64]⟩ : Shape).Idx → EReal) : (⟨2, ![50000, 64]⟩ : Shape).Idx → EReal :=
  fun i => gnorm (rows X A W0 lw0 lb0 W1 lw1 lb1) (fun j => gw (ix1 j)) (fun j => gb (ix1 j)) (fun j => ga (ix1 j)) (i 0) (i 1)

/-- The 50000 rows split into ten blocks of 5000: a sum over all rows is the sum over the blocks of each block's sum. -/
theorem sum_rows_blocks {M : Type*} [AddCommMonoid M] (f : Fin 50000 → M) :
    ∑ r : Fin 50000, f r = ∑ t : Fin 10, ∑ p : Fin 5000, f ⟨t.val * 5000 + p.val, by have := t.isLt; have := p.isLt; omega⟩ := by
  rw [← Fintype.sum_prod_type']
  refine (Fintype.sum_equiv (finProdFinEquiv (m := 10) (n := 5000)) _ _ ?_).symm
  rintro ⟨t, p⟩
  refine congrArg f (Fin.ext ?_)
  show t.val * 5000 + p.val = p.val + 5000 * t.val
  omega

end Cert.Spec

end
-- ==== Proof.KDefs.lean ====
/-
  Names for the kernel program's values on the extended reals: the aggregated neighbour rows as the host
  operations before the first region compute them from the node features and the edge list (a gather of the
  source rows, negative indices wrapped, scattered additively into zeros at the target rows), the rows
  after the two layers as the specification's function of the launch arrays, and the graph normalisation's
  three parameter vectors read as columns.
-/
import proofs.«181132_j3805341024429_1_alg».proof.Proof.Run
import proofs.«181132_j3805341024429_1_alg».proof.Proof.Spec
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

/-- The aggregated rows, as the first host stretch computes them (at any float instance). -/
def aggK {F : FTy → Type} [FloatOps F] (x0 : (⟨S50000x64, .f32⟩ : BufTy).Contents (Elt F)) (x1 : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0
      (shapeCast _ (extractStridedSlice S1x800000 ![1, 0] x1 slices_S2x800000_S1x800000_1_0) shapeCasts_S1x800000_S800000))
    (Host.gather gather_S50000x64_S800000x1_S800000x64_1_0_n_n_0_1_164 x0
      (broadcastInDim S800000x1 ![0] bcast_S800000_S800000x1_0
        (select
          (cmpi .slt (shapeCast _ (extractStridedSlice S1x800000 ![0, 0] x1 slices_S2x800000_S1x800000_0_0) shapeCasts_S1x800000_S800000)
            (broadcastInDim S800000 ![] bcast_S_S800000 (constantI S_ 32 0#32)))
          (addi (shapeCast _ (extractStridedSlice S1x800000 ![0, 0] x1 slices_S2x800000_S1x800000_0_0) shapeCasts_S1x800000_S800000)
            (broadcastInDim S800000 ![] bcast_S_S800000 (constantI S_ 32 50000#32)))
          (shapeCast _ (extractStridedSlice S1x800000 ![0, 0] x1 slices_S2x800000_S1x800000_0_0) shapeCasts_S1x800000_S800000))))

variable (m : (ℓ : Loc nD τ sig) → Buf (Elt Ideal) ℓ) (ρ : Dev nD → PrngReg)

/-- A [64] vector read as a column function. -/
abbrev col (v : S64.Idx → EReal) : Fin 64 → EReal := fun j => v (ix1 j)

/-- The graph normalisation's `alpha`, scale and shift, from the launch memory. -/
abbrev ga (c : Dev nD) : Fin 64 → EReal := col (m ((c : Thread nD τ).loc main_arg10))
abbrev gw (c : Dev nD) : Fin 64 → EReal := col (m ((c : Thread nD τ).loc main_arg8))
abbrev gb (c : Dev nD) : Fin 64 → EReal := col (m ((c : Thread nD τ).loc main_arg9))

/-- The aggregated rows, from the launch memory. -/
def agg (c : Dev nD) : S50000x64.Idx → EReal :=
  aggK (F := Ideal) (m ((c : Thread nD τ).loc main_arg0)) (m ((c : Thread nD τ).loc main_arg1))

/-- The rows after the two layers, from the launch memory. -/
def Hrows (c : Dev nD) : Fin 50000 → Fin 64 → EReal :=
  Cert.Spec.rows (m ((c : Thread nD τ).loc main_arg0)) (agg m c) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

end Cert.KernelIdeal.KVal

end
-- ==== Proof.PayVal.lean ====
/-
  The kernel bodies' stored values read at an index, on the extended reals: the block of results the first
  body stores is the two-layer network of the specification on each of the block's rows; each running-sum
  update adds the block's column sums; the last body's stored value is the graph normalisation's formula
  entry by entry.
-/
import proofs.«181132_j3805341024429_1_alg».proof.Proof.Gen.KernelIdeal.Skeleton
import proofs.«181132_j3805341024429_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen
open Idealize.ShloMosaic Idealize.ShloMosaic.TcCoe Idealize.ShloMosaic.ValueIdx

/-! ## Layout operations at an index: the column forms -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two sums at an index -/

/-- A row's sum: the reduction along the 64 columns, at row `p`. -/
theorem rowSum_apply (v : FVec Ideal S5000x64 .f32) (p : Fin 5000) :
    multiReduction (F := Ideal) .add [1] S5000 v 0x00000000#32 reduces_S5000x64_S5000 (.inl rfl) rfl (ix1 p)
      = ∑ k : Fin 64, v (ix2 p k) := by
  refine (Ideal.multiReduction_add_single v 0x00000000#32 reduces_S5000x64_S5000 (.inl rfl) rfl (ix1 p)).trans ?_
  refine Finset.sum_congr rfl fun k _ => congrArg v (funext fun a => Fin.ext ?_)
  match a with
  | ⟨0, _⟩ => rfl
  | ⟨1, _⟩ => rfl

/-- A column's sum: the reduction along the 5000 rows, at column `j`. -/
theorem colSum_apply (v : FVec Ideal S5000x64 .f32) (j : Fin 64) :
    multiReduction (F := Ideal) .add [0] S64 v 0x00000000#32 reduces_S5000x64_S64 (.inl rfl) rfl (ix1 j)
      = ∑ p : Fin 5000, v (ix2 p j) := by
  refine (Ideal.multiReduction_add_single v 0x00000000#32 reduces_S5000x64_S64 (.inl rfl) rfl (ix1 j)).trans ?_
  refine Finset.sum_congr rfl fun k _ => congrArg v (funext fun a => Fin.ext ?_)
  match a with
  | ⟨0, _⟩ => rfl
  | ⟨1, _⟩ => rfl

/-! ## The matrix product at an index -/

theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero accumulator, at row `p` and column `j`: the sum over the 64 contracted positions. -/
theorem matmul_apply (x : FVec Ideal S5000x64 .bf16) (w : FVec Ideal S64x64 .bf16) (p : Fin 5000) (j : Fin 64) :
    matmul dot_S5000x64_S64x64_S5000x64_1_0_0_1_n_n none x w (constant (F := Ideal) S5000x64 .f32 0x00000000#32) (ix2 p j)
      = ∑ k : Fin 64, x (ix2 p k) * w (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (rhs_dot_0 _ _).trans hk
    | ⟨1, _⟩ => exact rhs_dot_1 _ _)
  rw [el, er]

/-- The linear map of a layer: the block against the transposed weight, at row `p` and column `j`. -/
def mm (h : FVec Ideal S5000x64 .f32) (W : Vec Ideal S64x64 .f32) : FVec Ideal S5000x64 .f32 :=
  matmul dot_S5000x64_S64x64_S5000x64_1_0_0_1_n_n none (truncf .bf16 h bitsLt_bf16_f32)
    (transpose S64x64 [1, 0] (truncf .bf16 W bitsLt_bf16_f32) transposes_S64x64_p1_0_S64x64)
    (constant (F := Ideal) S5000x64 .f32 0x00000000#32)

theorem mm_apply (h : FVec Ideal S5000x64 .f32) (W : Vec Ideal S64x64 .f32) (p : Fin 5000) (j : Fin 64) :
    mm h W (ix2 p j) = Cert.Spec.lin (fun j k => W (ix2 j k)) (fun k => h (ix2 p k)) j := by
  unfold mm Cert.Spec.lin
  refine (matmul_apply _ _ p j).trans ?_
  refine Finset.sum_congr rfl fun k _ => ?_
  rw [truncf_apply]
  refine congrArg (h (ix2 p k) * ·) ?_
  refine (transpose_ix2_apply _ transposes_S64x64_p1_0_S64x64 k j).trans ?_
  rfl

/-! ## The layer normalisation at an index -/

/-- A row's mean, kept as a column: the row's sum, cast to a column, over the word `64.0`. -/
def meanCol (v : FVec Ideal S5000x64 .f32) : FVec Ideal S5000x1 .f32 :=
  divf (shapeCast S5000x1 (multiReduction (F := Ideal) .add [1] S5000 v 0x00000000#32 reduces_S5000x64_S5000 (.inl rfl) rfl) shapeCasts_S5000_S5000x1)
    (broadcast S5000x1 (Scalar.ofBits .f32 0x42800000#32))

theorem meanCol_apply (v : FVec Ideal S5000x64 .f32) (p : Fin 5000) (u : Fin 1) :
    meanCol v (ix2 p u) = Cert.Spec.rowMean (fun k => v (ix2 p k)) := by
  unfold meanCol Cert.Spec.rowMean Cert.Spec.c64
  rw [divf_apply, broadcast_apply]
  show Ideal.div _ (Ideal.ofBits .f32 0x42800000#32) = _
  refine congrArg (Ideal.div · (Ideal.ofBits .f32 0x42800000#32)) ?_
  refine (shapeCast_a_a1_apply _ shapeCasts_S5000_S5000x1 p u).trans ?_
  exact rowSum_apply v p

/-- The deviations of every row from its mean. -/
def devs (v : FVec Ideal S5000x64 .f32) : FVec Ideal S5000x64 .f32 :=
  subf v (broadcastTo S5000x64 (meanCol v) broadcasts_S5000x1_S5000x64)

theorem devs_apply (v : FVec Ideal S5000x64 .f32) (p : Fin 5000) (j : Fin 64) :
    devs v (ix2 p j) = Cert.Spec.rowDev (fun k => v (ix2 p k)) j := by
  unfold devs Cert.Spec.rowDev
  rw [subf_apply]
  refine congrArg (v (ix2 p j) - ·) ?_
  refine (broadcastTo_a1_ab_apply _ broadcasts_S5000x1_S5000x64 p j).trans ?_
  exact meanCol_apply v p 0

/-- The reciprocal square root of every row's variance plus epsilon, kept as a column. -/
def rstd (v : FVec Ideal S5000x64 .f32) : FVec Ideal S5000x1 .f32 :=
  rsqrt (addf (meanCol (mulf (devs v) (devs v))) (broadcast S5000x1 (Scalar.ofBits .f32 0x3727C5AC#32)))

theorem rstd_apply (v : FVec Ideal S5000x64 .f32) (p : Fin 5000) (u : Fin 1) :
    rstd v (ix2 p u) = Ideal.rsqrt (Cert.Spec.rowVar (fun k => v (ix2 p k)) + Cert.Spec.eps) := by
  unfold rstd Cert.Spec.rowVar Cert.Spec.eps
  show Ideal.rsqrt (meanCol (mulf (devs v) (devs v)) (ix2 p u) + Ideal.ofBits .f32 0x3727C5AC#32) = _
  refine congrArg (fun z => Ideal.rsqrt (z + Ideal.ofBits .f32 0x3727C5AC#32)) ?_
  refine (meanCol_apply _ p u).trans ?_
  unfold Cert.Spec.rowMean
  refine congrArg (Ideal.div · Cert.Spec.c64) (Finset.sum_congr rfl fun k _ => ?_)
  show mulf (devs v) (devs v) (ix2 p k) = _
  rw [mulf_apply, devs_apply]

/-- The normalisation of every row of `v`, scaled by `lw` and shifted by `lb`. -/
def normed (v : FVec Ideal S5000x64 .f32) (lw lb : Vec Ideal S1x64 .f32) : FVec Ideal S5000x64 .f32 :=
  addf (mulf (mulf (devs v) (broadcastTo S5000x64 (rstd v) broadcasts_S5000x1_S5000x64))
      (broadcastTo S5000x64 (shapeCast S1x64 lw shapeCasts_S1x64_S1x64) broadcasts_S1x64_S5000x64))
    (broadcastTo S5000x64 (shapeCast S1x64 lb shapeCasts_S1x64_S1x64) broadcasts_S1x64_S5000x64)

theorem normed_apply (v : FVec Ideal S5000x64 .f32) (lw lb : Vec Ideal S1x64 .f32) (p : Fin 5000) (j : Fin 64) :
    normed v lw lb (ix2 p j)
      = Cert.Spec.lnorm (fun j => lw (ix2 0 j)) (fun j => lb (ix2 0 j)) (fun k => v (ix2 p k)) j := by
  unfold normed Cert.Spec.lnorm
  rw [addf_apply, mulf_apply, mulf_apply, devs_apply, shapeCast_self, shapeCast_self]
  rw [broadcastTo_1b_ab_apply lw broadcasts_S1x64_S5000x64 p j, broadcastTo_1b_ab_apply lb broadcasts_S1x64_S5000x64 p j,
    broadcastTo_a1_ab_apply (rstd v) broadcasts_S5000x1_S5000x64 p j, rstd_apply]

/-- One layer before its clamp: the linear map, then the normalisation. -/
theorem layer_apply (h : FVec Ideal S5000x64 .f32) (W : Vec Ideal S64x64 .f32) (lw lb : Vec Ideal S1x64 .f32) (p : Fin 5000) (j : Fin 64) :
    normed (mm h W) lw lb (ix2 p j)
      = Cert.Spec.lnorm (fun j => lw (ix2 0 j)) (fun j => lb (ix2 0 j))
          (Cert.Spec.lin (fun j k => W (ix2 j k)) (fun k => h (ix2 p k))) j := by
  rw [normed_apply]
  exact congrArg (fun v => Cert.Spec.lnorm (fun j => lw (ix2 0 j)) (fun j => lb (ix2 0 j)) v j) (funext fun k => mm_apply h W p k)

/-! ## The first body's two stored values -/

theorem k0_pay3_eq (x a : Vec Ideal S5000x64 .f32) (W0 : Vec Ideal S64x64 .f32) (lw0 lb0 : Vec Ideal S1x64 .f32) :
    k0_pay3 (F := Ideal) x a W0 lw0 lb0
      = normed (mm (addf (mulf x (broadcast S5000x64 (Scalar.ofBits .f32 0x3F800000#32)))
          (shapeCast S5000x64 a shapeCasts_S5000x64_S5000x64)) W0) lw0 lb0 := rfl

theorem k0_pay4_eq (v37 : FVec Ideal S5000x64 .f32) (c : Ideal .f32) (W1 : Vec Ideal S64x64 .f32) (lw1 lb1 : Vec Ideal S1x64 .f32) :
    k0_pay4 (F := Ideal) v37 c W1 lw1 lb1
      = maximumf (normed (mm (maximumf v37 (broadcast S5000x64 c)) W1) lw1 lb1)
          (broadcast S5000x64 (Scalar.ofBits .f32 0x00000000#32)) := rfl

/-- The first layer before its clamp, at row `p` and column `j`. -/
theorem pay3_apply (x a : Vec Ideal S5000x64 .f32) (W0 : Vec Ideal S64x64 .f32) (lw0 lb0 : Vec Ideal S1x64 .f32) (p : Fin 5000) (j : Fin 64) :
    k0_pay3 (F := Ideal) x a W0 lw0 lb0 (ix2 p j)
      = Cert.Spec.lnorm (fun j => lw0 (ix2 0 j)) (fun j => lb0 (ix2 0 j))
          (Cert.Spec.lin (fun j k => W0 (ix2 j k)) (fun k => x (ix2 p k) * Cert.Spec.one + a (ix2 p k))) j := by
  rw [k0_pay3_eq]
  refine (layer_apply _ W0 lw0 lb0 p j).trans ?_
  refine congrArg (fun h => Cert.Spec.lnorm (fun j => lw0 (ix2 0 j)) (fun j => lb0 (ix2 0 j)) (Cert.Spec.lin (fun j k => W0 (ix2 j k)) h) j) (funext fun k => ?_)
  rw [addf_apply, mulf_apply, broadcast_apply, shapeCast_self]
  rfl

/-- The cleared scratch of the first body holds the word `0.0` everywhere. -/
theorem k0_pay2_apply (y : S1x64.Idx) : k0_pay2 (F := Ideal) y = Cert.Spec.zero :=
  congrFun (shapeCast_self (broadcast S1x64 (Scalar.ofBits (F := Ideal) .f32 0x00000000#32)) shapeCasts_S1x64_S1x64) y

/-- The cleared scratch of the second body holds the word `0.0` everywhere. -/
theorem k1_pay1_apply (y : S1x64.Idx) : k1_pay1 (F := Ideal) y = Cert.Spec.zero :=
  congrFun (shapeCast_self (broadcast S1x64 (Scalar.ofBits (F := Ideal) .f32 0x00000000#32)) shapeCasts_S1x64_S1x64) y

/-- The block the first body stores, at row `p` and column `j`: the two-layer network on row `p` of the block of own
    rows `x` and of aggregated rows `a`. -/
theorem hblk_apply (x a : Vec Ideal S5000x64 .f32) (W0 : Vec Ideal S64x64 .f32) (lw0 lb0 : Vec Ideal S1x64 .f32)
    (W1 : Vec Ideal S64x64 .f32) (lw1 lb1 : Vec Ideal S1x64 .f32) (p : Fin 5000) (j : Fin 64) :
    k0_pay4 (F := Ideal) (k0_pay3 x a W0 lw0 lb0) (Scalar.ofBits .f32 0x00000000#32) W1 lw1 lb1 (ix2 p j)
      = Cert.Spec.mlpRow (fun j k => W0 (ix2 j k)) (fun j => lw0 (ix2 0 j)) (fun j => lb0 (ix2 0 j))
          (fun j k => W1 (ix2 j k)) (fun j => lw1 (ix2 0 j)) (fun j => lb1 (ix2 0 j))
          (fun k => x (ix2 p k)) (fun k => a (ix2 p k)) j := by
  rw [k0_pay4_eq, maximumf_apply, broadcast_apply]
  unfold Cert.Spec.mlpRow Cert.Spec.layer Cert.Spec.relu
  show max _ Cert.Spec.zero = max _ Cert.Spec.zero
  refine congrArg (max · Cert.Spec.zero) ?_
  refine (layer_apply _ W1 lw1 lb1 p j).trans ?_
  refine congrArg (fun h => Cert.Spec.lnorm (fun j => lw1 (ix2 0 j)) (fun j => lb1 (ix2 0 j)) (Cert.Spec.lin (fun j k => W1 (ix2 j k)) h) j) (funext fun k => ?_)
  rw [maximumf_apply, broadcast_apply, pay3_apply]
  rfl

theorem k0_pay15_eq (v37 : FVec Ideal S5000x64 .f32) (c : Ideal .f32) (W1 : Vec Ideal S64x64 .f32) (lw1 lb1 acc : Vec Ideal S1x64 .f32) :
    k0_pay1 (F := Ideal) (k0_pay5 v37 c W1 lw1 lb1 acc)
      = shapeCast S1x64 (addf acc (shapeCast S1x64 (multiReduction (F := Ideal) .add [0] S64 (k0_pay4 v37 c W1 lw1 lb1) 0x00000000#32
          reduces_S5000x64_S64 (.inl rfl) rfl) shapeCasts_S64_S1x64)) shapeCasts_S1x64_S1x64 := rfl

/-- The first body's running-sum update, at column `j`: what the scratch held plus the column's sum over the block the
    body stores. -/
theorem acc0_apply (v37 : FVec Ideal S5000x64 .f32) (W1 : Vec Ideal S64x64 .f32) (lw1 lb1 acc : Vec Ideal S1x64 .f32) (j : Fin 64) :
    k0_pay1 (F := Ideal) (k0_pay5 v37 (Scalar.ofBits .f32 0x00000000#32) W1 lw1 lb1 acc) (ix2 0 j)
      = acc (ix2 0 j) + ∑ p : Fin 5000, k0_pay4 (F := Ideal) v37 (Scalar.ofBits .f32 0x00000000#32) W1 lw1 lb1 (ix2 p j) := by
  rw [k0_pay15_eq, shapeCast_self, addf_apply]
  refine congrArg (acc (ix2 0 j) + ·) ?_
  refine (shapeCast_a_1a_apply _ shapeCasts_S64_S1x64 0 j).trans ?_
  exact colSum_apply _ j

/-! ## The second and third bodies' stored values -/

/-- The deviations of a block's entries from `alpha` times the column means. -/
def cdev (h : Vec Ideal S5000x64 .f32) (al mean : Vec Ideal S1x64 .f32) : FVec Ideal S5000x64 .f32 :=
  subf (shapeCast S5000x64 h shapeCasts_S5000x64_S5000x64)
    (broadcastTo S5000x64 (mulf (shapeCast S1x64 al shapeCasts_S1x64_S1x64) (shapeCast S1x64 mean shapeCasts_S1x64_S1x64))
      broadcasts_S1x64_S5000x64)

theorem cdev_apply (h : Vec Ideal S5000x64 .f32) (al mean : Vec Ideal S1x64 .f32) (p : Fin 5000) (j : Fin 64) :
    cdev h al mean (ix2 p j) = h (ix2 p j) - al (ix2 0 j) * mean (ix2 0 j) := by
  unfold cdev
  rw [subf_apply, shapeCast_self, shapeCast_self, shapeCast_self, broadcastTo_1b_ab_apply _ broadcasts_S1x64_S5000x64 p j, mulf_apply]

theorem k1_pay2_eq (h : Vec Ideal S5000x64 .f32) (al mean acc : Vec Ideal S1x64 .f32) :
    k1_pay2 (F := Ideal) h al mean acc
      = shapeCast S1x64 (addf acc (shapeCast S1x64 (multiReduction (F := Ideal) .add [0] S64 (mulf (cdev h al mean) (cdev h al mean)) 0x00000000#32
          reduces_S5000x64_S64 (.inl rfl) rfl) shapeCasts_S64_S1x64)) shapeCasts_S1x64_S1x64 := rfl

/-- The second body's running-sum update, at column `j`: what the scratch held plus the block's sum of squared deviations
    from `alpha` times the mean. -/
theorem acc1_apply (h : Vec Ideal S5000x64 .f32) (al mean acc : Vec Ideal S1x64 .f32) (j : Fin 64) :
    k1_pay2 (F := Ideal) h al mean acc (ix2 0 j)
      = acc (ix2 0 j) + ∑ p : Fin 5000, (h (ix2 p j) - al (ix2 0 j) * mean (ix2 0 j)) * (h (ix2 p j) - al (ix2 0 j) * mean (ix2 0 j)) := by
  rw [k1_pay2_eq, shapeCast_self, addf_apply]
  refine congrArg (acc (ix2 0 j) + ·) ?_
  refine (shapeCast_a_1a_apply _ shapeCasts_S64_S1x64 0 j).trans ?_
  refine (colSum_apply _ j).trans ?_
  refine Finset.sum_congr rfl fun p _ => ?_
  rw [mulf_apply, cdev_apply]

theorem k2_pay1_eq (h : Vec Ideal S5000x64 .f32) (al mean gw var gb : Vec Ideal S1x64 .f32) :
    k2_pay1 (F := Ideal) h al mean gw var gb
      = addf (mulf (mulf (broadcastTo S5000x64 (shapeCast S1x64 gw shapeCasts_S1x64_S1x64) broadcasts_S1x64_S5000x64) (cdev h al mean))
            (broadcastTo S5000x64 (rsqrt (addf (shapeCast S1x64 var shapeCasts_S1x64_S1x64) (broadcast S1x64 (Scalar.ofBits .f32 0x3727C5AC#32))))
              broadcasts_S1x64_S5000x64))
          (broadcastTo S5000x64 (shapeCast S1x64 gb shapeCasts_S1x64_S1x64) broadcasts_S1x64_S5000x64) := rfl

/-- The third body's stored block, at row `p` and column `j`. -/
theorem out2_apply (h : Vec Ideal S5000x64 .f32) (al mean gw var gb : Vec Ideal S1x64 .f32) (p : Fin 5000) (j : Fin 64) :
    k2_pay1 (F := Ideal) h al mean gw var gb (ix2 p j)
      = gw (ix2 0 j) * (h (ix2 p j) - al (ix2 0 j) * mean (ix2 0 j)) * Ideal.rsqrt (var (ix2 0 j) + Cert.Spec.eps) + gb (ix2 0 j) := by
  rw [k2_pay1_eq, addf_apply, mulf_apply, mulf_apply, cdev_apply, shapeCast_self, shapeCast_self, shapeCast_self]
  rw [broadcastTo_1b_ab_apply gw broadcasts_S1x64_S5000x64 p j, broadcastTo_1b_ab_apply gb broadcasts_S1x64_S5000x64 p j,
    broadcastTo_1b_ab_apply _ broadcasts_S1x64_S5000x64 p j]
  rfl

end Cert.KernelIdeal.PayVal

end
-- ==== Proof.KVal0.lean ====
/-
  The first region's two output arrays on the extended reals: the array of results holds, row by row, the
  specification's two-layer network of the launch arrays (each block of 5000 rows is what the body stores
  at its grid point, and the ten blocks tile the array), and the [1, 64] array of column sums holds each
  column's sum over all 50000 rows (the scratch is cleared at the first point and gains one block's column
  sums at every point; the ten block sums are the whole sum).
-/
import proofs.«181132_j3805341024429_1_alg».proof.Proof.KDefs
import proofs.«181132_j3805341024429_1_alg».proof.Proof.PayVal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The region's entry contents: the launch arrays, the aggregated rows, the reshaped vectors -/

theorem r0_entry_arg0 (c : Dev nD) : Run.V1 m ρ c main_arg0 = m ((c : Thread nD τ).loc main_arg0) :=
  (StableHlo.after_of_writes_sub hostOps0 _ hostOps0_writes (r := main_arg0) (by decide)).trans rfl
theorem r0_entry_arg2 (c : Dev nD) : Run.V1 m ρ c main_arg2 = m ((c : Thread nD τ).loc main_arg2) :=
  (StableHlo.after_of_writes_sub hostOps0 _ hostOps0_writes (r := main_arg2) (by decide)).trans rfl
theorem r0_entry_arg5 (c : Dev nD) : Run.V1 m ρ c main_arg5 = m ((c : Thread nD τ).loc main_arg5) :=
  (StableHlo.after_of_writes_sub hostOps0 _ hostOps0_writes (r := main_arg5) (by decide)).trans rfl

/-- The aggregated rows the region finds are the host stretch's gather and additive scatter of the launch arrays. -/
theorem r0_entry_v13 (c : Dev nD) : Run.V1 m ρ c main_v13 = agg m c := by
  show StableHlo.after hostOps0 _ (Proc.devRef .tc main_v13) = _
  after_results
  rfl

theorem r0_entry_v14 (c : Dev nD) :
    Run.V1 m ρ c main_v14 = shapeCast S1x64 (m ((c : Thread nD τ).loc main_arg3)) shapeCasts_S64_S1x64 := by
  show StableHlo.after hostOps0 _ (Proc.devRef .tc main_v14) = _
  after_results
  rfl
theorem r0_entry_v15 (c : Dev nD) :
    Run.V1 m ρ c main_v15 = shapeCast S1x64 (m ((c : Thread nD τ).loc main_arg4)) shapeCasts_S64_S1x64 := by
  show StableHlo.after hostOps0 _ (Proc.devRef .tc main_v15) = _
  after_results
  rfl
theorem r0_entry_v16 (c : Dev nD) :
    Run.V1 m ρ c main_v16 = shapeCast S1x64 (m ((c : Thread nD τ).loc main_arg6)) shapeCasts_S64_S1x64 := by
  show StableHlo.after hostOps0 _ (Proc.devRef .tc main_v16) = _
  after_results
  rfl
theorem r0_entry_v17 (c : Dev nD) :
    Run.V1 m ρ c main_v17 = shapeCast S1x64 (m ((c : Thread nD τ).loc main_arg7)) shapeCasts_S64_S1x64 := by
  show StableHlo.after hostOps0 _ (Proc.devRef .tc main_v17) = _
  after_results
  rfl

/-! ## Where the blocks sit -/

/-- The block index of every window at every point: the two row-blocked inputs and the array of results move one
    block of rows per point; every other window's block is its whole array. -/
theorem r0_block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = 0 ∧ win0_9.index t (1 : Fin 2) = 0 :=
  (by decide +kernel : ∀ t : Fin grid0.N, _)

/-- Row `p` of block `t`, as a row of the whole array. -/
def r0_row (t : Fin cfg0.N) (p : Fin 5000) : Fin 50000 :=
  ⟨t.val * 5000 + p.val, by have h1 := t.isLt; have hN : cfg0.N = 10 := N_0; have h2 := p.isLt; omega⟩

theorem r0_emb_0 (t : Fin cfg0.N) (p : Fin 5000) (k : Fin 64) :
    ((cfg0.win 0).blk t).view.emb (ix2 p k) = ix2 (r0_row t p) k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_0.index t (0 : Fin 2) * 5000 + 1 * p.val = t.val * 5000 + p.val; rw [e0a]; omega
  | ⟨1, _⟩ => show win0_0.index t (1 : Fin 2) * 64 + 1 * k.val = k.val; rw [e0b]; omega
theorem r0_emb_1 (t : Fin cfg0.N) (p : Fin 5000) (k : Fin 64) :
    ((cfg0.win 1).blk t).view.emb (ix2 p k) = ix2 (r0_row t p) k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_1.index t (0 : Fin 2) * 5000 + 1 * p.val = t.val * 5000 + p.val; rw [e1a]; omega
  | ⟨1, _⟩ => show win0_1.index t (1 : Fin 2) * 64 + 1 * k.val = k.val; rw [e1b]; omega
theorem r0_emb_8 (t : Fin cfg0.N) (p : Fin 5000) (k : Fin 64) :
    ((cfg0.win 8).blk t).view.emb (ix2 p k) = ix2 (r0_row t p) k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_8.index t (0 : Fin 2) * 5000 + 1 * p.val = t.val * 5000 + p.val; rw [e8a]; omega
  | ⟨1, _⟩ => show win0_8.index t (1 : Fin 2) * 64 + 1 * k.val = k.val; rw [e8b]; omega
theorem r0_emb_2 (t : Fin cfg0.N) (j k : Fin 64) :
    ((cfg0.win 2).blk t).view.emb (ix2 j k) = ix2 j k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_2.index t (0 : Fin 2) * 64 + 1 * j.val = j.val; rw [e2a]; omega
  | ⟨1, _⟩ => show win0_2.index t (1 : Fin 2) * 64 + 1 * k.val = k.val; rw [e2b]; omega
theorem r0_emb_5 (t : Fin cfg0.N) (j k : Fin 64) :
    ((cfg0.win 5).blk t).view.emb (ix2 j k) = ix2 j k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_5.index t (0 : Fin 2) * 64 + 1 * j.val = j.val; rw [e5a]; omega
  | ⟨1, _⟩ => show win0_5.index t (1 : Fin 2) * 64 + 1 * k.val = k.val; rw [e5b]; omega
theorem r0_emb_3 (t : Fin cfg0.N) (u : Fin 1) (k : Fin 64) :
    ((cfg0.win 3).blk t).view.emb (ix2 u k) = ix2 u k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_3.index t (0 : Fin 2) * 1 + 1 * u.val = u.val; rw [e3a]; omega
  | ⟨1, _⟩ => show win0_3.index t (1 : Fin 2) * 64 + 1 * k.val = k.val; rw [e3b]; omega
theorem r0_emb_4 (t : Fin cfg0.N) (u : Fin 1) (k : Fin 64) :
    ((cfg0.win 4).blk t).view.emb (ix2 u k) = ix2 u k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_4.index t (0 : Fin 2) * 1 + 1 * u.val = u.val; rw [e4a]; omega
  | ⟨1, _⟩ => show win0_4.index t (1 : Fin 2) * 64 + 1 * k.val = k.val; rw [e4b]; omega
theorem r0_emb_6 (t : Fin cfg0.N) (u : Fin 1) (k : Fin 64) :
    ((cfg0.win 6).blk t).view.emb (ix2 u k) = ix2 u k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_6.index t (0 : Fin 2) * 1 + 1 * u.val = u.val; rw [e6a]; omega
  | ⟨1, _⟩ => show win0_6.index t (1 : Fin 2) * 64 + 1 * k.val = k.val; rw [e6b]; omega
theorem r0_emb_7 (t : Fin cfg0.N) (u : Fin 1) (k : Fin 64) :
    ((cfg0.win 7).blk t).view.emb (ix2 u k) = ix2 u k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_7.index t (0 : Fin 2) * 1 + 1 * u.val = u.val; rw [e7a]; omega
  | ⟨1, _⟩ => show win0_7.index t (1 : Fin 2) * 64 + 1 * k.val = k.val; rw [e7b]; omega
theorem r0_emb_9 (t : Fin cfg0.N) (u : Fin 1) (k : Fin 64) :
    ((cfg0.win 9).blk t).view.emb (ix2 u k) = ix2 u k := by
  obtain ⟨e0a, e0b, e1a, e1b, e8a, e8b, e2a, e2b, e3a, e3b, e4a, e4b, e5a, e5b, e6a, e6b, e7a, e7b, e9a, e9b⟩ := r0_block_index t
  funext a; apply Fin.ext
  match a with
  | ⟨0, _⟩ => show win0_9.index t (0 : Fin 2) * 1 + 1 * u.val = u.val; rw [e9a]; omega
  | ⟨1, _⟩ => show win0_9.index t (1 : Fin 2) * 64 + 1 * k.val = k.val; rw [e9b]; omega

/-! ## The blocks read at an index, at any entry contents -/

theorem r0_read_0 (V : (c : Dev nD) → (b : Ref sig .tc) → Buf (Elt Ideal) ((c : Thread nD τ).loc b)) (c : Dev nD) (t : Fin cfg0.N) (p : Fin 5000) (k : Fin 64) :
    Reg0.iblk0 V c 0 t (ix2 p k) = V c main_arg0 (ix2 (r0_row t p) k) := by
  show V c main_arg0 (((cfg0.win 0).blk t).view.emb (ix2 p k)) = _
  rw [r0_emb_0]
theorem r0_read_1 (V : (c : Dev nD) → (b : Ref sig .tc) → Buf (Elt Ideal) ((c : Thread nD τ).loc b)) (c : Dev nD) (t : Fin cfg0.N) (p : Fin 5000) (k : Fin 64) :
    Reg0.iblk0 V c 1 t (ix2 p k) = V c main_v13 (ix2 (r0_row t p) k) := by
  show V c main_v13 (((cfg0.win 1).blk t).view.emb (ix2 p k)) = _
  rw [r0_emb_1]
theorem r0_read_2 (V : (c : Dev nD) → (b : Ref sig .tc) → Buf (Elt Ideal) ((c : Thread nD τ).loc b)) (c : Dev nD) (t : Fin cfg0.N) (p : Fin 64) (k : Fin 64) :
    Reg0.iblk0 V c 2 t (ix2 p k) = V c main_arg2 (ix2 p k) := by
  show V c main_arg2 (((cfg0.win 2).blk t).view.emb (ix2 p k)) = _
  rw [r0_emb_2]
theorem r0_read_5 (V : (c : Dev nD) → (b : Ref sig .tc) → Buf (Elt Ideal) ((c : Thread nD τ).loc b)) (c : Dev nD) (t : Fin cfg0.N) (p : Fin 64) (k : Fin 64) :
    Reg0.iblk0 V c 5 t (ix2 p k) = V c main_arg5 (ix2 p k) := by
  show V c main_arg5 (((cfg0.win 5).blk t).view.emb (ix2 p k)) = _
  rw [r0_emb_5]
theorem r0_read_3 (V : (c : Dev nD) → (b : Ref sig .tc) → Buf (Elt Ideal) ((c : Thread nD τ).loc b)) (c : Dev nD) (t : Fin cfg0.N) (p : Fin 1) (k : Fin 64) :
    Reg0.iblk0 V c 3 t (ix2 p k) = V c main_v14 (ix2 p k) := by
  show V c main_v14 (((cfg0.win 3).blk t).view.emb (ix2 p k)) = _
  rw [r0_emb_3]
theorem r0_read_4 (V : (c : Dev nD) → (b : Ref sig .tc) → Buf (Elt Ideal) ((c : Thread nD τ).loc b)) (c : Dev nD) (t : Fin cfg0.N) (p : Fin 1) (k : Fin 64) :
    Reg0.iblk0 V c 4 t (ix2 p k) = V c main_v15 (ix2 p k) := by
  show V c main_v15 (((cfg0.win 4).blk t).view.emb (ix2 p k)) = _
  rw [r0_emb_4]
theorem r0_read_6 (V : (c : Dev nD) → (b : Ref sig .tc) → Buf (Elt Ideal) ((c : Thread nD τ).loc b)) (c : Dev nD) (t : Fin cfg0.N) (p : Fin 1) (k : Fin 64) :
    Reg0.iblk0 V c 6 t (ix2 p k) = V c main_v16 (ix2 p k) := by
  show V c main_v16 (((cfg0.win 6).blk t).view.emb (ix2 p k)) = _
  rw [r0_emb_6]
theorem r0_read_7 (V : (c : Dev nD) → (b : Ref sig .tc) → Buf (Elt Ideal) ((c : Thread nD τ).loc b)) (c : Dev nD) (t : Fin cfg0.N) (p : Fin 1) (k : Fin 64) :
    Reg0.iblk0 V c 7 t (ix2 p k) = V c main_v17 (ix2 p k) := by
  show V c main_v17 (((cfg0.win 7).blk t).view.emb (ix2 p k)) = _
  rw [r0_emb_7]

/-- A function on the array of results read through point `t`'s block. -/
theorem r0_read_8 (G : S50000x64.Idx → EReal) (t : Fin cfg0.N) (p : Fin 5000) (k : Fin 64) :
    ((cfg0.win 8).blk t).view.read (Elt Ideal) G (ix2 p k) = G (ix2 (r0_row t p) k) := by
  show G (((cfg0.win 8).blk t).view.emb (ix2 p k)) = _
  rw [r0_emb_8]
/-- A function on the array of column sums read through its one block. -/
theorem r0_read_9 (G : S1x64.Idx → EReal) (t : Fin cfg0.N) (u : Fin 1) (k : Fin 64) :
    ((cfg0.win 9).blk t).view.read (Elt Ideal) G (ix2 u k) = G (ix2 u k) := by
  show G (((cfg0.win 9).blk t).view.emb (ix2 u k)) = _
  rw [r0_emb_9]

/-- What a point writes back of the results is the block the body stored, -/
theorem r0_flushed8_gen (V : (c : Dev nD) → (b : Ref sig .tc) → Buf (Elt Ideal) ((c : Thread nD τ).loc b)) (c : Dev nD) (t : Fin cfg0.N) (p : Fin 5000) (j : Fin 64) :
    (Reg0.dat0 V c).flushed 8 t (ix2 p j) = Reg0.hblk0 V c t (ix2 p j) := by
  show (cfg0.win 8).cut (grid0.coords t) ((Reg0.dat0 V c).after 8 t) (ix2 p j) = _
  rw [Reg0.after0_8]
  rfl
/-- and of the column sums what the scratch then holds. -/
theorem r0_flushed9_gen (V : (c : Dev nD) → (b : Ref sig .tc) → Buf (Elt Ideal) ((c : Thread nD τ).loc b)) (c : Dev nD) (t : Fin cfg0.N) (u : Fin 1) (j : Fin 64) :
    (Reg0.dat0 V c).flushed 9 t (ix2 u j) = Reg0.acc0 V c t.val t.isLt (ix2 u j) := by
  show (cfg0.win 9).cut (grid0.coords t) ((Reg0.dat0 V c).after 9 t) (ix2 u j) = _
  rw [Reg0.after0_9]
  rfl

/-- The stored block at row `p`: the two-layer network on row `p` of the input blocks. -/
theorem r0_hblk_gen (V : (c : Dev nD) → (b : Ref sig .tc) → Buf (Elt Ideal) ((c : Thread nD τ).loc b)) (c : Dev nD) (t : Fin cfg0.N) (p : Fin 5000) (j : Fin 64) :
    Reg0.hblk0 V c t (ix2 p j)
      = Cert.Spec.mlpRow (fun j k => Reg0.iblk0 V c 2 t (ix2 j k)) (fun j => Reg0.iblk0 V c 3 t (ix2 0 j)) (fun j => Reg0.iblk0 V c 4 t (ix2 0 j))
          (fun j k => Reg0.iblk0 V c 5 t (ix2 j k)) (fun j => Reg0.iblk0 V c 6 t (ix2 0 j)) (fun j => Reg0.iblk0 V c 7 t (ix2 0 j))
          (fun k => Reg0.iblk0 V c 0 t (ix2 p k)) (fun k => Reg0.iblk0 V c 1 t (ix2 p k)) j := by
  unfold Reg0.hblk0 Reg0.pre0
  exact PayVal.hblk_apply _ _ _ _ _ _ _ _ p j

/-- One update of the running sums: what the scratch held plus the stored block's column sums. -/
theorem r0_step_gen (V : (c : Dev nD) → (b : Ref sig .tc) → Buf (Elt Ideal) ((c : Thread nD τ).loc b)) (c : Dev nD) (t : Fin cfg0.N) (acc : Vec Ideal S1x64 .f32) (j : Fin 64) :
    k0_pay1 (F := Ideal) (k0_pay5 (Reg0.pre0 V c t) (Reg0.z0 (F := Ideal)) (Reg0.iblk0 V c 5 t)
        (Reg0.iblk0 V c 6 t) (Reg0.iblk0 V c 7 t) acc) (ix2 0 j)
      = acc (ix2 0 j) + ∑ p : Fin 5000, Reg0.hblk0 V c t (ix2 p j) := by
  unfold Reg0.hblk0
  exact PayVal.acc0_apply _ _ _ _ acc j

/-! ## The input blocks of this run -/

theorem r0_blk_own (c : Dev nD) (t : Fin cfg0.N) (p : Fin 5000) (k : Fin 64) :
    Reg0.iblk0 (Run.V1 m ρ) c 0 t (ix2 p k) = m ((c : Thread nD τ).loc main_arg0) (ix2 (r0_row t p) k) :=
  (r0_read_0 (Run.V1 m ρ) c t p k).trans (congrFun (r0_entry_arg0 m ρ c) _)
theorem r0_blk_agg (c : Dev nD) (t : Fin cfg0.N) (p : Fin 5000) (k : Fin 64) :
    Reg0.iblk0 (Run.V1 m ρ) c 1 t (ix2 p k) = agg m c (ix2 (r0_row t p) k) :=
  (r0_read_1 (Run.V1 m ρ) c t p k).trans (congrFun (r0_entry_v13 m ρ c) _)
theorem r0_blk_W0 (c : Dev nD) (t : Fin cfg0.N) (j k : Fin 64) :
    Reg0.iblk0 (Run.V1 m ρ) c 2 t (ix2 j k) = m ((c : Thread nD τ).loc main_arg2) (ix2 j k) :=
  (r0_read_2 (Run.V1 m ρ) c t j k).trans (congrFun (r0_entry_arg2 m ρ c) _)
theorem r0_blk_W1 (c : Dev nD) (t : Fin cfg0.N) (j k : Fin 64) :
    Reg0.iblk0 (Run.V1 m ρ) c 5 t (ix2 j k) = m ((c : Thread nD τ).loc main_arg5) (ix2 j k) :=
  (r0_read_5 (Run.V1 m ρ) c t j k).trans (congrFun (r0_entry_arg5 m ρ c) _)
theorem r0_blk_vec3 (c : Dev nD) (t : Fin cfg0.N) (k : Fin 64) :
    Reg0.iblk0 (Run.V1 m ρ) c 3 t (ix2 0 k) = m ((c : Thread nD τ).loc main_arg3) (ix1 k) :=
  (r0_read_3 (Run.V1 m ρ) c t 0 k).trans ((congrFun (r0_entry_v14 m ρ c) _).trans
    (shapeCast_a_1a_apply _ shapeCasts_S64_S1x64 0 k))
theorem r0_blk_vec4 (c : Dev nD) (t : Fin cfg0.N) (k : Fin 64) :
    Reg0.iblk0 (Run.V1 m ρ) c 4 t (ix2 0 k) = m ((c : Thread nD τ).loc main_arg4) (ix1 k) :=
  (r0_read_4 (Run.V1 m ρ) c t 0 k).trans ((congrFun (r0_entry_v15 m ρ c) _).trans
    (shapeCast_a_1a_apply _ shapeCasts_S64_S1x64 0 k))
theorem r0_blk_vec6 (c : Dev nD) (t : Fin cfg0.N) (k : Fin 64) :
    Reg0.iblk0 (Run.V1 m ρ) c 6 t (ix2 0 k) = m ((c : Thread nD τ).loc main_arg6) (ix1 k) :=
  (r0_read_6 (Run.V1 m ρ) c t 0 k).trans ((congrFun (r0_entry_v16 m ρ c) _).trans
    (shapeCast_a_1a_apply _ shapeCasts_S64_S1x64 0 k))
theorem r0_blk_vec7 (c : Dev nD) (t : Fin cfg0.N) (k : Fin 64) :
    Reg0.iblk0 (Run.V1 m ρ) c 7 t (ix2 0 k) = m ((c : Thread nD τ).loc main_arg7) (ix1 k) :=
  (r0_read_7 (Run.V1 m ρ) c t 0 k).trans ((congrFun (r0_entry_v17 m ρ c) _).trans
    (shapeCast_a_1a_apply _ shapeCasts_S64_S1x64 0 k))

/-! ## The stored block and the running sums -/

/-- The block of results the body stores at point `t`, at its row `p`: the specification's rows at row `p` of block `t`. -/
theorem r0_hblk_apply (c : Dev nD) (t : Fin cfg0.N) (p : Fin 5000) (j : Fin 64) :
    Reg0.hblk0 (Run.V1 m ρ) c t (ix2 p j) = Hrows m c (r0_row t p) j := by
  refine (r0_hblk_gen (Run.V1 m ρ) c t p j).trans ?_
  unfold Hrows Cert.Spec.rows
  simp only [r0_blk_own, r0_blk_agg, r0_blk_W0, r0_blk_W1, r0_blk_vec3, r0_blk_vec4, r0_blk_vec6, r0_blk_vec7]

/-- One update of the running sums: what the scratch held plus block `t`'s column sums of the specification's rows. -/
theorem r0_step (c : Dev nD) (t : Fin cfg0.N) (acc : Vec Ideal S1x64 .f32) (j : Fin 64) :
    k0_pay1 (F := Ideal) (k0_pay5 (Reg0.pre0 (Run.V1 m ρ) c t) (Reg0.z0 (F := Ideal)) (Reg0.iblk0 (Run.V1 m ρ) c 5 t)
        (Reg0.iblk0 (Run.V1 m ρ) c 6 t) (Reg0.iblk0 (Run.V1 m ρ) c 7 t) acc) (ix2 0 j)
      = acc (ix2 0 j) + ∑ p : Fin 5000, Hrows m c (r0_row t p) j :=
  (r0_step_gen (Run.V1 m ρ) c t acc j).trans
    (congrArg (acc (ix2 0 j) + ·) (Finset.sum_congr rfl fun p _ => r0_hblk_apply m ρ c t p j))

/-- Block `s`'s column sum of the specification's rows (zero past the last block). -/
def r0_bsum (c : Dev nD) (j : Fin 64) (s : ℕ) : EReal :=
  if hs : s < 10 then ∑ p : Fin 5000, Hrows m c ⟨s * 5000 + p.val, by have := p.isLt; omega⟩ j else 0

theorem r0_bsum_eq (c : Dev nD) (j : Fin 64) (t : Fin cfg0.N) :
    r0_bsum m c j t.val = ∑ p : Fin 5000, Hrows m c (r0_row t p) j := by
  have hN : t.val < 10 := lt_of_lt_of_eq t.isLt (show cfg0.N = 10 from N_0)
  unfold r0_bsum; rw [dif_pos hN]; rfl

/-- The scratch after point `n`, at column `j`: the column sums of the blocks up to `n`. -/
theorem r0_acc_apply (c : Dev nD) (j : Fin 64) : ∀ (n : ℕ) (h : n < cfg0.N),
    Reg0.acc0 (Run.V1 m ρ) c n h (ix2 0 j) = ∑ s ∈ Finset.range (n + 1), r0_bsum m c j s
  | 0, h => by
    rw [Finset.sum_range_one, r0_bsum_eq m c j ⟨0, h⟩]
    refine (congrFun (Reg0.acc0_first (Run.V1 m ρ) c ⟨0, h⟩ rfl) (ix2 0 j)).trans ?_
    refine (r0_step m ρ c ⟨0, h⟩ _ j).trans ?_
    rw [PayVal.k0_pay2_apply]
    unfold Cert.Spec.zero
    rw [Ideal.ofBits_zero_f32, zero_add]
  | n + 1, h => by
    rw [Finset.sum_range_succ, ← r0_acc_apply c j n (Nat.lt_of_succ_lt h), r0_bsum_eq m c j ⟨n + 1, h⟩]
    refine (congrFun (Reg0.acc0_later (Run.V1 m ρ) c ⟨n + 1, h⟩ (Nat.succ_ne_zero n)) (ix2 0 j)).trans ?_
    exact r0_step m ρ c ⟨n + 1, h⟩ _ j

/-- The ten block sums are the sum over all rows. -/
theorem r0_sum_blocks (c : Dev nD) (j : Fin 64) :
    ∑ s ∈ Finset.range 10, r0_bsum m c j s = ∑ r : Fin 50000, Hrows m c r j := by
  rw [Cert.Spec.sum_rows_blocks (fun r => Hrows m c r j), ← Fin.sum_univ_eq_sum_range (fun s => r0_bsum m c j s) 10]
  refine Finset.sum_congr rfl fun t _ => ?_
  unfold r0_bsum; rw [dif_pos t.isLt]

/-! ## From blocks to the arrays -/

/-- The array of results as one function of its index. -/
def r0_G8 (c : Dev nD) : (⟨2, ![50000, 64]⟩ : Shape).Idx → EReal := fun i => Hrows m c (i 0) (i 1)
/-- The array of column sums as one function of its index. -/
def r0_G9 (c : Dev nD) : (⟨2, ![1, 64]⟩ : Shape).Idx → EReal := fun i => ∑ r : Fin 50000, Hrows m c r (i 1)

/-- What point `t` writes back of the results is block `t` of that function. -/
theorem r0_flushed8 (c : Dev nD) (t : Fin cfg0.N) :
    (Reg0.dat0 (Run.V1 m ρ) c).flushed 8 t = ((cfg0.win 8).blk t).view.read (Elt Ideal) (r0_G8 m c) := by
  funext y
  obtain ⟨p, j, rfl⟩ : ∃ (p : Fin 5000) (j : Fin 64), y = ix2 p j := ⟨y 0, y 1, eq_ix2 y⟩
  refine (r0_flushed8_gen (Run.V1 m ρ) c t p j).trans ?_
  refine (r0_hblk_apply m ρ c t p j).trans ?_
  exact (r0_read_8 (r0_G8 m c) t p j).symm

/-- What the last point writes back of the column sums is that function. -/
theorem r0_flushed9 (c : Dev nD) (t : Fin cfg0.N) (hf : (cfg0.win 9).flush t = true) :
    (Reg0.dat0 (Run.V1 m ρ) c).flushed 9 t = ((cfg0.win 9).blk t).view.read (Elt Ideal) (r0_G9 m c) := by
  have h9 : t.val % 10 = 9 := (flush0_9 t).mp hf
  have hN : t.val < 10 := lt_of_lt_of_eq t.isLt (show cfg0.N = 10 from N_0)
  have ht : t.val + 1 = 10 := by omega
  funext y
  obtain ⟨u, j, rfl⟩ : ∃ (u : Fin 1) (j : Fin 64), y = ix2 u j := ⟨y 0, y 1, eq_ix2 y⟩
  obtain rfl : u = 0 := Subsingleton.elim _ _
  refine (r0_flushed9_gen (Run.V1 m ρ) c t 0 j).trans ?_
  refine (r0_acc_apply m ρ c j t.val t.isLt).trans ?_
  rw [ht, r0_sum_blocks]
  exact (r0_read_9 (r0_G9 m c) t 0 j).symm

/-- An index of the array of results is in point `t`'s block iff each coordinate is in the block's range on its axis. -/
theorem r0_mem_blk8 (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v18_0).slice (win0_8.rect t)).set ↔ _
  rw [View.set_slice_whole, Rect.mem_set_unit]
  exact Iff.rfl
theorem r0_mem_blk9 (t : Fin cfg0.N) (i : S1x64.Idx) :
    i ∈ ((cfg0.win 9).blk t).view.set ↔ ∀ a : Fin 2, win0_9.index t a * S1x64.size a ≤ (i a).val ∧ (i a).val < win0_9.index t a * S1x64.size a + S1x64.size a := by
  show i ∈ ((View.whole main_v18_1).slice (win0_9.rect t)).set ↔ _
  rw [View.set_slice_whole, Rect.mem_set_unit]
  exact Iff.rfl

/-- The array of results after the first region, entry by entry. -/
theorem final0_8 (c : Dev nD) (r : Fin 50000) (j : Fin 64) :
    (Reg0.dat0 (Run.V1 m ρ) c).arrAt 8 cfg0.N (ix2 r j) = Hrows m c r j := by
  have hr := r.isLt
  have ht : r.val / 5000 < cfg0.N := by rw [show cfg0.N = 10 from N_0]; omega
  refine ((Reg0.dat0 (Run.V1 m ρ) c).arrAt_apply_of_mem 8 (r0_G8 m c) (fun t _ => r0_flushed8 m ρ c t) cfg0.N ⟨r.val / 5000, ht⟩ (ix2 r j) ht (flush0_8 _) ?_).trans rfl
  obtain ⟨e0a, e0b, e1a, e1b, e8a, e8b, e2a, e2b, e3a, e3b, e4a, e4b, e5a, e5b, e6a, e6b, e7a, e7b, e9a, e9b⟩ := r0_block_index ⟨r.val / 5000, ht⟩
  rw [r0_mem_blk8]
  intro a
  match a with
  | ⟨0, _⟩ => show win0_8.index ⟨r.val / 5000, ht⟩ (0 : Fin 2) * 5000 ≤ r.val ∧ r.val < win0_8.index ⟨r.val / 5000, ht⟩ (0 : Fin 2) * 5000 + 5000; rw [e8a]; show r.val / 5000 * 5000 ≤ r.val ∧ r.val < r.val / 5000 * 5000 + 5000; omega
  | ⟨1, _⟩ => show win0_8.index ⟨r.val / 5000, ht⟩ (1 : Fin 2) * 64 ≤ j.val ∧ j.val < win0_8.index ⟨r.val / 5000, ht⟩ (1 : Fin 2) * 64 + 64; rw [e8b]; have := j.isLt; omega

/-- The array of column sums after the first region. -/
theorem final0_9 (c : Dev nD) (j : Fin 64) :
    (Reg0.dat0 (Run.V1 m ρ) c).arrAt 9 cfg0.N (ix2 0 j) = ∑ r : Fin 50000, Hrows m c r j := by
  have ht : 9 < cfg0.N := by rw [show cfg0.N = 10 from N_0]; omega
  have hf : (cfg0.win 9).flush ⟨9, ht⟩ = true := (flush0_9 ⟨9, ht⟩).mpr rfl
  refine ((Reg0.dat0 (Run.V1 m ρ) c).arrAt_apply_of_mem 9 (r0_G9 m c) (fun t hf => r0_flushed9 m ρ c t hf) cfg0.N ⟨9, ht⟩ (ix2 0 j) ht hf ?_).trans rfl
  obtain ⟨e0a, e0b, e1a, e1b, e8a, e8b, e2a, e2b, e3a, e3b, e4a, e4b, e5a, e5b, e6a, e6b, e7a, e7b, e9a, e9b⟩ := r0_block_index ⟨9, ht⟩
  rw [r0_mem_blk9]
  intro a
  match a with
  | ⟨0, _⟩ => show win0_9.index ⟨9, ht⟩ (0 : Fin 2) * 1 ≤ 0 ∧ 0 < win0_9.index ⟨9, ht⟩ (0 : Fin 2) * 1 + 1; rw [e9a]; omega
  | ⟨1, _⟩ => show win0_9.index ⟨9, ht⟩ (1 : Fin 2) * 64 ≤ j.val ∧ j.val < win0_9.index ⟨9, ht⟩ (1 : Fin 2) * 64 + 64; rw [e9b]; have := j.isLt; omega

end Cert.KernelIdeal.KVal

end
-- ==== Proof.KVal1.lean ====
/-
  The second region's output on the extended reals: given that the first region left the rows `H` and
  their column sums, the host operations between the regions make the column means (the sums divided by
  the row count) and the second region's [1, 64] output holds, for each column, the sum over all 50000 rows
  of the squared deviations from `alpha` times the column's mean.
-/
import proofs.«181132_j3805341024429_1_alg».proof.Proof.KDefs
import proofs.«181132_j3805341024429_1_alg».proof.Proof.PayVal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- Where the second region's windows sit at each point: the row block moves down the rows one block a point, the
    three [1, 64] windows stay on their one block. -/
theorem r1_index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row `p` of the row block at point `t` is row `5000 t + p` of the array of rows. -/
theorem r1_rows_read (V : (c : Dev nD) → (b : Ref sig .tc) → Buf (Elt Ideal) ((c : Thread nD τ).loc b)) (c : Dev nD)
    (t : Fin cfg1.N) (p : Fin 5000) (j : Fin 64) (r : Fin 50000) (hr : r.val = t.val * 5000 + p.val) :
    Reg1.iblk1 V c 0 t (ix2 p j) = V c main_v18_0 (ix2 r j) := by
  obtain ⟨e0, e1, -⟩ := r1_index_facts t
  show V c main_v18_0 (((cfg1.win 0).blk t).view.emb (ix2 p j)) = _
  refine congrArg (V c main_v18_0) (funext fun a => Fin.ext ?_)
  match a with
  | ⟨0, _⟩ => show win1_0.index t (0 : Fin 2) * 5000 + 1 * p.val = r.val; omega
  | ⟨1, _⟩ => show win1_0.index t (1 : Fin 2) * 64 + 1 * j.val = j.val; omega

/-- The column-means window's one block is the whole [1, 64] array. -/
theorem r1_means_read (V : (c : Dev nD) → (b : Ref sig .tc) → Buf (Elt Ideal) ((c : Thread nD τ).loc b)) (c : Dev nD)
    (t : Fin cfg1.N) (j : Fin 64) :
    Reg1.iblk1 V c 1 t (ix2 0 j) = V c main_v20 (ix2 0 j) := by
  obtain ⟨-, -, e0, e1, -⟩ := r1_index_facts t
  show V c main_v20 (((cfg1.win 1).blk t).view.emb (ix2 0 j)) = _
  refine congrArg (V c main_v20) (funext fun a => Fin.ext ?_)
  match a with
  | ⟨0, _⟩ => show win1_1.index t (0 : Fin 2) * 1 + 1 * 0 = 0; omega
  | ⟨1, _⟩ => show win1_1.index t (1 : Fin 2) * 64 + 1 * j.val = j.val; omega

/-- The `alpha` window's one block is the whole [1, 64] array. -/
theorem r1_alpha_read (V : (c : Dev nD) → (b : Ref sig .tc) → Buf (Elt Ideal) ((c : Thread nD τ).loc b)) (c : Dev nD)
    (t : Fin cfg1.N) (j : Fin 64) :
    Reg1.iblk1 V c 2 t (ix2 0 j) = V c main_v21 (ix2 0 j) := by
  obtain ⟨-, -, -, -, e0, e1, -⟩ := r1_index_facts t
  show V c main_v21 (((cfg1.win 2).blk t).view.emb (ix2 0 j)) = _
  refine congrArg (V c main_v21) (funext fun a => Fin.ext ?_)
  match a with
  | ⟨0, _⟩ => show win1_2.index t (0 : Fin 2) * 1 + 1 * 0 = 0; omega
  | ⟨1, _⟩ => show win1_2.index t (1 : Fin 2) * 64 + 1 * j.val = j.val; omega

/-- The rows the second region reads are what the first region left. -/
theorem r1_entry_rows (c : Dev nD) : Run.V3 m ρ c main_v18_0 = (Reg0.dat0 (Run.V1 m ρ) c).arrAt 8 cfg0.N :=
  calc Run.V3 m ρ c main_v18_0
    _ = Run.W2 m ρ c (Proc.devRef .tc main_v18_0) := StableHlo.after_of_writes_sub hostOps1 _ hostOps1_writes (r := main_v18_0) (by decide)
    _ = _ := Run.W2_arr m ρ c 8

/-- The column means the second region reads: the first region's column sums over the row count. -/
theorem r1_entry_means (c : Dev nD) (H : Fin 50000 → Fin 64 → EReal)
    (h9 : ∀ j : Fin 64, (Reg0.dat0 (Run.V1 m ρ) c).arrAt 9 cfg0.N (ix2 0 j) = ∑ r : Fin 50000, H r j) (j : Fin 64) :
    Run.V3 m ρ c main_v20 (ix2 0 j) = Cert.Spec.colMean H j := by
  have e : (Run.V3 m ρ c main_v20 : S1x64.Idx → EReal)
      = Host.divf (Run.W2 m ρ c (Proc.devRef .tc main_v18_1)) (broadcastInDim S1x64 ![] bcast_S_S1x64 (constant (F := Ideal) S_ .f32 0x47435000#32)) := by
    show StableHlo.after hostOps1 (Run.W2 m ρ c) (Proc.devRef .tc main_v20) = _
    after_results
  have e9 : Run.W2 m ρ c (Proc.devRef .tc main_v18_1) = (Reg0.dat0 (Run.V1 m ρ) c).arrAt 9 cfg0.N := Run.W2_arr m ρ c 9
  refine (congrFun e (ix2 0 j)).trans ?_
  show Ideal.div (Run.W2 m ρ c (Proc.devRef .tc main_v18_1) (ix2 0 j)) (Ideal.ofBits .f32 0x47435000#32) = _
  rw [e9, h9]
  rfl

/-- The `alpha` row the second region reads is the launch array's `alpha`. -/
theorem r1_entry_alpha (c : Dev nD) (j : Fin 64) : Run.V3 m ρ c main_v21 (ix2 0 j) = ga m c j := by
  have e : (Run.V3 m ρ c main_v21 : S1x64.Idx → EReal)
      = shapeCast S1x64 (Run.W2 m ρ c (Proc.devRef .tc main_arg10)) shapeCasts_S64_S1x64 := by
    show StableHlo.after hostOps1 (Run.W2 m ρ c) (Proc.devRef .tc main_v21) = _
    after_results
    rfl
  have e10 : Run.W2 m ρ c (Proc.devRef .tc main_arg10) = m ((c : Thread nD τ).loc main_arg10) :=
    calc Run.W2 m ρ c (Proc.devRef .tc main_arg10)
      _ = Run.W1 m ρ c (Proc.devRef .tc main_arg10) := Run.W2_of_ne m ρ c main_arg10 (by decide)
      _ = Run.W0 m ρ c (Proc.devRef .tc main_arg10) := StableHlo.after_of_writes_sub hostOps0 _ hostOps0_writes (r := main_arg10) (by decide)
      _ = m ((c : Thread nD τ).loc main_arg10) := rfl
  refine (congrFun e (ix2 0 j)).trans ?_
  refine (shapeCast_a_1a_apply _ shapeCasts_S64_S1x64 0 j).trans ?_
  exact congrFun e10 (ix1 j)

/-- One row block's contribution to column `j`: the sum over the block's 5000 rows of the squared deviations. -/
def r1_blockSum (H : Fin 50000 → Fin 64 → EReal) (al : Fin 64 → EReal) (j : Fin 64) (t : Fin 10) : EReal :=
  ∑ p : Fin 5000, Cert.Spec.colDev H al ⟨t.val * 5000 + p.val, by have := t.isLt; have := p.isLt; omega⟩ j
    * Cert.Spec.colDev H al ⟨t.val * 5000 + p.val, by have := t.isLt; have := p.isLt; omega⟩ j

/-- One update of the running sum at point `t`: what the scratch held plus the point's block's contribution. -/
theorem r1_update (c : Dev nD) (H : Fin 50000 → Fin 64 → EReal)
    (h8 : ∀ (r : Fin 50000) (j : Fin 64), (Reg0.dat0 (Run.V1 m ρ) c).arrAt 8 cfg0.N (ix2 r j) = H r j)
    (h9 : ∀ j : Fin 64, (Reg0.dat0 (Run.V1 m ρ) c).arrAt 9 cfg0.N (ix2 0 j) = ∑ r : Fin 50000, H r j)
    (t : Fin cfg1.N) (t' : Fin 10) (ht : t'.val = t.val) (acc : Vec Ideal S1x64 .f32) (j : Fin 64) :
    k1_pay2 (F := Ideal) (Reg1.iblk1 (Run.V3 m ρ) c 0 t) (Reg1.iblk1 (Run.V3 m ρ) c 2 t) (Reg1.iblk1 (Run.V3 m ρ) c 1 t) acc (ix2 0 j)
      = acc (ix2 0 j) + r1_blockSum H (ga m c) j t' := by
  refine (PayVal.acc1_apply (Reg1.iblk1 (Run.V3 m ρ) c 0 t) (Reg1.iblk1 (Run.V3 m ρ) c 2 t) (Reg1.iblk1 (Run.V3 m ρ) c 1 t) acc j).trans ?_
  refine congrArg (acc (ix2 0 j) + ·) ?_
  unfold r1_blockSum
  refine Finset.sum_congr rfl fun p _ => ?_
  have hr : (⟨t'.val * 5000 + p.val, by have := t'.isLt; have := p.isLt; omega⟩ : Fin 50000).val = t.val * 5000 + p.val := by
    show t'.val * 5000 + p.val = t.val * 5000 + p.val
    rw [ht]
  rw [r1_rows_read (Run.V3 m ρ) c t p j _ hr, r1_alpha_read (Run.V3 m ρ) c t j, r1_means_read (Run.V3 m ρ) c t j,
    r1_entry_rows m ρ c, h8, r1_entry_alpha m ρ c j, r1_entry_means m ρ c H h9 j]
  rfl

/-- The running sum after point `n`: the contributions of the blocks up to `n`. -/
theorem r1_partial (c : Dev nD) (H : Fin 50000 → Fin 64 → EReal)
    (h8 : ∀ (r : Fin 50000) (j : Fin 64), (Reg0.dat0 (Run.V1 m ρ) c).arrAt 8 cfg0.N (ix2 r j) = H r j)
    (h9 : ∀ j : Fin 64, (Reg0.dat0 (Run.V1 m ρ) c).arrAt 9 cfg0.N (ix2 0 j) = ∑ r : Fin 50000, H r j) (j : Fin 64) :
    ∀ (n : ℕ) (hn : n < cfg1.N) (hn' : n + 1 ≤ 10),
      Reg1.acc1 (Run.V3 m ρ) c n hn (ix2 0 j) = ∑ t : Fin (n + 1), r1_blockSum H (ga m c) j (Fin.castLE hn' t)
  | 0, hn, hn' => by
    refine (congrFun (Reg1.acc1_first (Run.V3 m ρ) c ⟨0, hn⟩ rfl) (ix2 0 j)).trans ?_
    refine (r1_update m ρ c H h8 h9 ⟨0, hn⟩ ⟨0, by omega⟩ rfl _ j).trans ?_
    rw [PayVal.k1_pay1_apply, Fin.sum_univ_one]
    show Cert.Spec.zero + _ = _
    unfold Cert.Spec.zero
    rw [Ideal.ofBits_zero_f32, zero_add]
    rfl
  | n + 1, hn, hn' => by
    have e : Reg1.acc1 (Run.V3 m ρ) c (n + 1) hn
        = k1_pay2 (F := Ideal) (Reg1.iblk1 (Run.V3 m ρ) c 0 ⟨n + 1, hn⟩) (Reg1.iblk1 (Run.V3 m ρ) c 2 ⟨n + 1, hn⟩) (Reg1.iblk1 (Run.V3 m ρ) c 1 ⟨n + 1, hn⟩)
            (Reg1.acc1 (Run.V3 m ρ) c n (Nat.lt_of_succ_lt hn)) := rfl
    refine (congrFun e (ix2 0 j)).trans ?_
    refine (r1_update m ρ c H h8 h9 ⟨n + 1, hn⟩ ⟨n + 1, by omega⟩ rfl _ j).trans ?_
    rw [Fin.sum_univ_castSucc, r1_partial c H h8 h9 j n (Nat.lt_of_succ_lt hn) (by omega)]
    rfl

/-- An index of the [1, 64] output array is in point `t`'s block iff each coordinate is in the block's range. -/
theorem r1_mem_out (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v24).slice (win1_3.rect t)).set ↔ _
  rw [View.set_slice_whole, Rect.mem_set_unit]
  exact Iff.rfl

/-- What a point that writes the output back writes: the running sum after the last point, whose one block is the
    whole array. -/
theorem r1_flushed (c : Dev nD) (h9' : 9 < cfg1.N) (t : Fin cfg1.N) (hf : (cfg1.win 3).flush t = true) :
    (Reg1.dat1 (Run.V3 m ρ) c).flushed 3 t
      = ((cfg1.win 3).blk t).view.read (Elt Ideal) (Reg1.acc1 (Run.V3 m ρ) c 9 h9') := by
  have ht : t.val = 9 := by
    have h := (flush1_3 t).mp hf
    have hN : t.val < 10 := lt_of_lt_of_eq t.isLt N_1
    omega
  obtain ⟨-, -, -, -, -, -, e0, e1⟩ := r1_index_facts t
  show (cfg1.win 3).cut (grid1.coords t) ((Reg1.dat1 (Run.V3 m ρ) c).after 3 t) = _
  rw [Reg1.after1_3]
  obtain ⟨n, hn⟩ := t
  dsimp only at ht
  subst ht
  funext y
  show Reg1.acc1 (Run.V3 m ρ) c 9 hn y = Reg1.acc1 (Run.V3 m ρ) c 9 h9' (((cfg1.win 3).blk ⟨9, hn⟩).view.emb y)
  refine congrArg (Reg1.acc1 (Run.V3 m ρ) c 9 hn) (funext fun a => Fin.ext ?_)
  match a with
  | ⟨0, _⟩ => show (y 0).val = win1_3.index ⟨9, hn⟩ (0 : Fin 2) * 1 + 1 * (y 0).val; omega
  | ⟨1, _⟩ => show (y 1).val = win1_3.index ⟨9, hn⟩ (1 : Fin 2) * 64 + 1 * (y 1).val; omega

/-- The array of sums of squared deviations after the second region. -/
theorem final1_3 (c : Dev nD) (H : Fin 50000 → Fin 64 → EReal)
    (h8 : ∀ (r : Fin 50000) (j : Fin 64), (Reg0.dat0 (Run.V1 m ρ) c).arrAt 8 cfg0.N (ix2 r j) = H r j)
    (h9 : ∀ j : Fin 64, (Reg0.dat0 (Run.V1 m ρ) c).arrAt 9 cfg0.N (ix2 0 j) = ∑ r : Fin 50000, H r j)
    (j : Fin 64) :
    (Reg1.dat1 (Run.V3 m ρ) c).arrAt 3 cfg1.N (ix2 0 j)
      = ∑ r : Fin 50000, Cert.Spec.colDev H (ga m c) r j * Cert.Spec.colDev H (ga m c) r j := by
  have h9' : 9 < cfg1.N := by rw [show cfg1.N = 10 from N_1]; decide
  have hlast : (cfg1.win 3).flush ⟨9, h9'⟩ = true := (flush1_3 ⟨9, h9'⟩).mpr rfl
  have hmem : (ix2 0 j : S1x64.Idx) ∈ ((cfg1.win 3).blk ⟨9, h9'⟩).view.set := by
    obtain ⟨-, -, -, -, -, -, e0, e1⟩ := r1_index_facts ⟨9, h9'⟩
    rw [r1_mem_out]
    intro a
    match a with
    | ⟨0, _⟩ => show win1_3.index ⟨9, h9'⟩ (0 : Fin 2) * 1 ≤ 0 ∧ 0 < win1_3.index ⟨9, h9'⟩ (0 : Fin 2) * 1 + 1; omega
    | ⟨1, _⟩ => show win1_3.index ⟨9, h9'⟩ (1 : Fin 2) * 64 ≤ j.val ∧ j.val < win1_3.index ⟨9, h9'⟩ (1 : Fin 2) * 64 + 64; have := j.isLt; omega
  rw [(Reg1.dat1 (Run.V3 m ρ) c).arrAt_apply_of_mem 3 (Reg1.acc1 (Run.V3 m ρ) c 9 h9') (r1_flushed m ρ c h9') cfg1.N ⟨9, h9'⟩ (ix2 0 j) h9' hlast hmem]
  rw [r1_partial m ρ c H h8 h9 j 9 h9' (by omega), Cert.Spec.sum_rows_blocks]
  rfl

end Cert.KernelIdeal.KVal

end
-- ==== Proof.KVal2.lean ====
/-
  The third region's output on the extended reals: given what the first two regions left (the rows `H`,
  their column sums, the column sums of squared deviations), the host operations between the regions make
  the column means and variances, and the third region's array holds the graph normalisation of `H`
  entry by entry (each block of 5000 rows is what the body stores at its grid point, and the ten blocks
  tile the array).
-/
import proofs.«181132_j3805341024429_1_alg».proof.Proof.KDefs
import proofs.«181132_j3805341024429_1_alg».proof.Proof.PayVal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The third region's arrays at its entry -/

/-- The rows' array enters the third region as the first region left it. -/
theorem r2_arr_rows (c : Dev nD) :
    Run.W5 m ρ c (Proc.devRef .tc main_v18_0) = (Reg0.dat0 (Run.V1 m ρ) c).arrAt 8 cfg0.N :=
  calc Run.W5 m ρ c (Proc.devRef .tc main_v18_0)
    _ = Run.W4 m ρ c (Proc.devRef .tc main_v18_0) := StableHlo.after_of_writes_sub hostOps2 _ hostOps2_writes (r := main_v18_0) (by decide)
    _ = Run.W3 m ρ c (Proc.devRef .tc main_v18_0) := Run.W4_in m ρ c 0 rfl
    _ = Run.W2 m ρ c (Proc.devRef .tc main_v18_0) := StableHlo.after_of_writes_sub hostOps1 _ hostOps1_writes (r := main_v18_0) (by decide)
    _ = (Reg0.dat0 (Run.V1 m ρ) c).arrAt 8 cfg0.N := Run.W2_arr m ρ c 8

/-- The column means' array: the first region's column sums over the word `50000.0`. -/
theorem r2_arr_mean (c : Dev nD) :
    Run.W5 m ρ c (Proc.devRef .tc main_v20)
      = Host.divf ((Reg0.dat0 (Run.V1 m ρ) c).arrAt 9 cfg0.N)
          (broadcastInDim S1x64 ![] bcast_S_S1x64 (constant (F := Ideal) S_ .f32 0x47435000#32)) :=
  calc Run.W5 m ρ c (Proc.devRef .tc main_v20)
    _ = Run.W4 m ρ c (Proc.devRef .tc main_v20) := StableHlo.after_of_writes_sub hostOps2 _ hostOps2_writes (r := main_v20) (by decide)
    _ = Run.W3 m ρ c (Proc.devRef .tc main_v20) := Run.W4_in m ρ c 1 rfl
    _ = Host.divf (Run.W2 m ρ c (Proc.devRef .tc main_v18_1))
          (broadcastInDim S1x64 ![] bcast_S_S1x64 (constant (F := Ideal) S_ .f32 0x47435000#32)) := by
        show StableHlo.after hostOps1 _ (Proc.devRef .tc main_v20) = _
        after_results
    _ = _ := by rw [show Run.W2 m ρ c (Proc.devRef .tc main_v18_1) = (Reg0.dat0 (Run.V1 m ρ) c).arrAt 9 cfg0.N from Run.W2_arr m ρ c 9]

/-- The column variances' array: the second region's sums of squared deviations over the word `50000.0`. -/
theorem r2_arr_var (c : Dev nD) :
    Run.W5 m ρ c (Proc.devRef .tc main_v26)
      = Host.divf ((Reg1.dat1 (Run.V3 m ρ) c).arrAt 3 cfg1.N)
          (broadcastInDim S1x64 ![] bcast_S_S1x64 (constant (F := Ideal) S_ .f32 0x47435000#32)) :=
  calc Run.W5 m ρ c (Proc.devRef .tc main_v26)
    _ = Host.divf (Run.W4 m ρ c (Proc.devRef .tc main_v24))
          (broadcastInDim S1x64 ![] bcast_S_S1x64 (constant (F := Ideal) S_ .f32 0x47435000#32)) := by
        show StableHlo.after hostOps2 _ (Proc.devRef .tc main_v26) = _
        after_results
    _ = _ := by rw [show Run.W4 m ρ c (Proc.devRef .tc main_v24) = (Reg1.dat1 (Run.V3 m ρ) c).arrAt 3 cfg1.N from Run.W4_arr m ρ c 3]

/-- An argument vector the first region does not touch is, at the second host stretch, as launched. -/
theorem r2_W2_arg10 (c : Dev nD) : Run.W2 m ρ c (Proc.devRef .tc main_arg10) = m ((c : Thread nD τ).loc main_arg10) :=
  calc Run.W2 m ρ c (Proc.devRef .tc main_arg10)
    _ = Run.W1 m ρ c (Proc.devRef .tc main_arg10) := Run.W2_of_ne m ρ c main_arg10 (by decide)
    _ = Run.W0 m ρ c (Proc.devRef .tc main_arg10) := StableHlo.after_of_writes_sub hostOps0 _ hostOps0_writes (r := main_arg10) (by decide)
    _ = m ((c : Thread nD τ).loc main_arg10) := rfl
theorem r2_W2_arg8 (c : Dev nD) : Run.W2 m ρ c (Proc.devRef .tc main_arg8) = m ((c : Thread nD τ).loc main_arg8) :=
  calc Run.W2 m ρ c (Proc.devRef .tc main_arg8)
    _ = Run.W1 m ρ c (Proc.devRef .tc main_arg8) := Run.W2_of_ne m ρ c main_arg8 (by decide)
    _ = Run.W0 m ρ c (Proc.devRef .tc main_arg8) := StableHlo.after_of_writes_sub hostOps0 _ hostOps0_writes (r := main_arg8) (by decide)
    _ = m ((c : Thread nD τ).loc main_arg8) := rfl
theorem r2_W2_arg9 (c : Dev nD) : Run.W2 m ρ c (Proc.devRef .tc main_arg9) = m ((c : Thread nD τ).loc main_arg9) :=
  calc Run.W2 m ρ c (Proc.devRef .tc main_arg9)
    _ = Run.W1 m ρ c (Proc.devRef .tc main_arg9) := Run.W2_of_ne m ρ c main_arg9 (by decide)
    _ = Run.W0 m ρ c (Proc.devRef .tc main_arg9) := StableHlo.after_of_writes_sub hostOps0 _ hostOps0_writes (r := main_arg9) (by decide)
    _ = m ((c : Thread nD τ).loc main_arg9) := rfl

/-- The `alpha` array: the argument vector read as one row. -/
theorem r2_arr_alpha (c : Dev nD) :
    Run.W5 m ρ c (Proc.devRef .tc main_v21) = shapeCast S1x64 (m ((c : Thread nD τ).loc main_arg10)) shapeCasts_S64_S1x64 :=
  calc Run.W5 m ρ c (Proc.devRef .tc main_v21)
    _ = Run.W4 m ρ c (Proc.devRef .tc main_v21) := StableHlo.after_of_writes_sub hostOps2 _ hostOps2_writes (r := main_v21) (by decide)
    _ = Run.W3 m ρ c (Proc.devRef .tc main_v21) := Run.W4_in m ρ c 2 rfl
    _ = shapeCast S1x64 (Run.W2 m ρ c (Proc.devRef .tc main_arg10)) shapeCasts_S64_S1x64 := by
        show StableHlo.after hostOps1 _ (Proc.devRef .tc main_v21) = _
        after_results
        rfl
    _ = _ := by rw [r2_W2_arg10]

/-- The scale array: the argument vector read as one row. -/
theorem r2_arr_scale (c : Dev nD) :
    Run.W5 m ρ c (Proc.devRef .tc main_v22) = shapeCast S1x64 (m ((c : Thread nD τ).loc main_arg8)) shapeCasts_S64_S1x64 :=
  calc Run.W5 m ρ c (Proc.devRef .tc main_v22)
    _ = Run.W4 m ρ c (Proc.devRef .tc main_v22) := StableHlo.after_of_writes_sub hostOps2 _ hostOps2_writes (r := main_v22) (by decide)
    _ = Run.W3 m ρ c (Proc.devRef .tc main_v22) := Run.W4_of_ne m ρ c main_v22 (by decide)
    _ = shapeCast S1x64 (Run.W2 m ρ c (Proc.devRef .tc main_arg8)) shapeCasts_S64_S1x64 := by
        show StableHlo.after hostOps1 _ (Proc.devRef .tc main_v22) = _
        after_results
        rfl
    _ = _ := by rw [r2_W2_arg8]

/-- The shift array: the argument vector read as one row. -/
theorem r2_arr_shift (c : Dev nD) :
    Run.W5 m ρ c (Proc.devRef .tc main_v23) = shapeCast S1x64 (m ((c : Thread nD τ).loc main_arg9)) shapeCasts_S64_S1x64 :=
  calc Run.W5 m ρ c (Proc.devRef .tc main_v23)
    _ = Run.W4 m ρ c (Proc.devRef .tc main_v23) := StableHlo.after_of_writes_sub hostOps2 _ hostOps2_writes (r := main_v23) (by decide)
    _ = Run.W3 m ρ c (Proc.devRef .tc main_v23) := Run.W4_of_ne m ρ c main_v23 (by decide)
    _ = shapeCast S1x64 (Run.W2 m ρ c (Proc.devRef .tc main_arg9)) shapeCasts_S64_S1x64 := by
        show StableHlo.after hostOps1 _ (Proc.devRef .tc main_v23) = _
        after_results
        rfl
    _ = _ := by rw [r2_W2_arg9]

/-! ## The blocks of the third region's windows -/

theorem r2_hz : (![0, 0] : Fin 2 → Nat) = fun _ => 0 := funext fun a => by fin_cases a <;> rfl

/-- The printed index maps, decided over the grid: the two [50000, 64] windows' block at point `t` is block `t` of rows,
    and every [1, 64] window's block is its whole array. -/
theorem r2_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of block `t` is row `5000 t + p` of the array. -/
theorem r2_row_lt (t : Fin cfg2.N) (p : Fin 5000) : t.val * 5000 + p.val < 50000 := by
  have ht : t.val < 10 := t.isLt
  have hp := p.isLt
  omega

theorem r2_emb_0 (t : Fin cfg2.N) (p : Fin 5000) (q : Fin 64) :
    ((cfg2.win 0).blk t).view.emb (ix2 p q) = ix2 (⟨t.val * 5000 + p.val, r2_row_lt t p⟩ : Fin 50000) q := by
  obtain ⟨e0, e1, -⟩ := r2_index_facts t
  funext a; apply Fin.ext
  match a with
  | ⟨0, _⟩ => show win2_0.index t (0 : Fin 2) * 5000 + 1 * p.val = t.val * 5000 + p.val; rw [e0]; omega
  | ⟨1, _⟩ => show win2_0.index t (1 : Fin 2) * 64 + 1 * q.val = q.val; rw [e1]; omega

theorem r2_emb_6 (t : Fin cfg2.N) (p : Fin 5000) (q : Fin 64) :
    ((cfg2.win 6).blk t).view.emb (ix2 p q) = ix2 (⟨t.val * 5000 + p.val, r2_row_lt t p⟩ : Fin 50000) q := by
  obtain ⟨-, -, -, -, -, -, -, -, -, -, -, -, e0, e1⟩ := r2_index_facts t
  funext a; apply Fin.ext
  match a with
  | ⟨0, _⟩ => show win2_6.index t (0 : Fin 2) * 5000 + 1 * p.val = t.val * 5000 + p.val; rw [e0]; omega
  | ⟨1, _⟩ => show win2_6.index t (1 : Fin 2) * 64 + 1 * q.val = q.val; rw [e1]; omega

theorem r2_emb_1 (t : Fin cfg2.N) (u : Fin 1) (q : Fin 64) : ((cfg2.win 1).blk t).view.emb (ix2 u q) = ix2 u q := by
  obtain ⟨-, -, e0, e1, -⟩ := r2_index_facts t
  funext a; apply Fin.ext
  match a with
  | ⟨0, _⟩ => show win2_1.index t (0 : Fin 2) * 1 + 1 * u.val = u.val; rw [e0]; omega
  | ⟨1, _⟩ => show win2_1.index t (1 : Fin 2) * 64 + 1 * q.val = q.val; rw [e1]; omega
theorem r2_emb_2 (t : Fin cfg2.N) (u : Fin 1) (q : Fin 64) : ((cfg2.win 2).blk t).view.emb (ix2 u q) = ix2 u q := by
  obtain ⟨-, -, -, -, e0, e1, -⟩ := r2_index_facts t
  funext a; apply Fin.ext
  match a with
  | ⟨0, _⟩ => show win2_2.index t (0 : Fin 2) * 1 + 1 * u.val = u.val; rw [e0]; omega
  | ⟨1, _⟩ => show win2_2.index t (1 : Fin 2) * 64 + 1 * q.val = q.val; rw [e1]; omega
theorem r2_emb_3 (t : Fin cfg2.N) (u : Fin 1) (q : Fin 64) : ((cfg2.win 3).blk t).view.emb (ix2 u q) = ix2 u q := by
  obtain ⟨-, -, -, -, -, -, e0, e1, -⟩ := r2_index_facts t
  funext a; apply Fin.ext
  match a with
  | ⟨0, _⟩ => show win2_3.index t (0 : Fin 2) * 1 + 1 * u.val = u.val; rw [e0]; omega
  | ⟨1, _⟩ => show win2_3.index t (1 : Fin 2) * 64 + 1 * q.val = q.val; rw [e1]; omega
theorem r2_emb_4 (t : Fin cfg2.N) (u : Fin 1) (q : Fin 64) : ((cfg2.win 4).blk t).view.emb (ix2 u q) = ix2 u q := by
  obtain ⟨-, -, -, -, -, -, -, -, e0, e1, -⟩ := r2_index_facts t
  funext a; apply Fin.ext
  match a with
  | ⟨0, _⟩ => show win2_4.index t (0 : Fin 2) * 1 + 1 * u.val = u.val; rw [e0]; omega
  | ⟨1, _⟩ => show win2_4.index t (1 : Fin 2) * 64 + 1 * q.val = q.val; rw [e1]; omega
theorem r2_emb_5 (t : Fin cfg2.N) (u : Fin 1) (q : Fin 64) : ((cfg2.win 5).blk t).view.emb (ix2 u q) = ix2 u q := by
  obtain ⟨-, -, -, -, -, -, -, -, -, -, e0, e1, -⟩ := r2_index_facts t
  funext a; apply Fin.ext
  match a with
  | ⟨0, _⟩ => show win2_5.index t (0 : Fin 2) * 1 + 1 * u.val = u.val; rw [e0]; omega
  | ⟨1, _⟩ => show win2_5.index t (1 : Fin 2) * 64 + 1 * q.val = q.val; rw [e1]; omega

/-! ## The windows' blocks read at an index -/

/-- The rows' block at point `t`, at row `p` and column `q`: row `5000 t + p` of the first region's rows. -/
theorem r2_read_rows (c : Dev nD) (t : Fin cfg2.N) (p : Fin 5000) (q : Fin 64) :
    Reg2.iblk2 (Run.V5 m ρ) c 0 t (ix2 p q)
      = (Reg0.dat0 (Run.V1 m ρ) c).arrAt 8 cfg0.N (ix2 (⟨t.val * 5000 + p.val, r2_row_lt t p⟩ : Fin 50000) q) := by
  show Run.W5 m ρ c (Proc.devRef .tc main_v18_0) (((cfg2.win 0).blk t).view.emb (ix2 p q)) = _
  rw [r2_emb_0, r2_arr_rows]

/-- The means' block, at column `q`: the first region's column sum over the word `50000.0`. -/
theorem r2_read_mean (c : Dev nD) (t : Fin cfg2.N) (q : Fin 64) :
    Reg2.iblk2 (Run.V5 m ρ) c 1 t (ix2 0 q)
      = Ideal.div ((Reg0.dat0 (Run.V1 m ρ) c).arrAt 9 cfg0.N (ix2 0 q)) Cert.Spec.cN := by
  show Run.W5 m ρ c (Proc.devRef .tc main_v20) (((cfg2.win 1).blk t).view.emb (ix2 0 q)) = _
  rw [r2_emb_1, r2_arr_mean]
  rfl

/-- The variances' block, at column `q`: the second region's sum over the word `50000.0`. -/
theorem r2_read_var (c : Dev nD) (t : Fin cfg2.N) (q : Fin 64) :
    Reg2.iblk2 (Run.V5 m ρ) c 2 t (ix2 0 q)
      = Ideal.div ((Reg1.dat1 (Run.V3 m ρ) c).arrAt 3 cfg1.N (ix2 0 q)) Cert.Spec.cN := by
  show Run.W5 m ρ c (Proc.devRef .tc main_v26) (((cfg2.win 2).blk t).view.emb (ix2 0 q)) = _
  rw [r2_emb_2, r2_arr_var]
  rfl

/-- The `alpha`, scale and shift blocks, at column `q`: the argument vectors' entries. -/
theorem r2_read_alpha (c : Dev nD) (t : Fin cfg2.N) (q : Fin 64) :
    Reg2.iblk2 (Run.V5 m ρ) c 3 t (ix2 0 q) = ga m c q := by
  show Run.W5 m ρ c (Proc.devRef .tc main_v21) (((cfg2.win 3).blk t).view.emb (ix2 0 q)) = _
  rw [r2_emb_3, r2_arr_alpha]
  exact shapeCast_a_1a_apply _ shapeCasts_S64_S1x64 0 q
theorem r2_read_scale (c : Dev nD) (t : Fin cfg2.N) (q : Fin 64) :
    Reg2.iblk2 (Run.V5 m ρ) c 4 t (ix2 0 q) = gw m c q := by
  show Run.W5 m ρ c (Proc.devRef .tc main_v22) (((cfg2.win 4).blk t).view.emb (ix2 0 q)) = _
  rw [r2_emb_4, r2_arr_scale]
  exact shapeCast_a_1a_apply _ shapeCasts_S64_S1x64 0 q
theorem r2_read_shift (c : Dev nD) (t : Fin cfg2.N) (q : Fin 64) :
    Reg2.iblk2 (Run.V5 m ρ) c 5 t (ix2 0 q) = gb m c q := by
  show Run.W5 m ρ c (Proc.devRef .tc main_v23) (((cfg2.win 5).blk t).view.emb (ix2 0 q)) = _
  rw [r2_emb_5, r2_arr_shift]
  exact shapeCast_a_1a_apply _ shapeCasts_S64_S1x64 0 q

/-! ## From the blocks to the array -/

/-- The graph normalisation of the rows `H` as one array over [50000, 64]. -/
def r2_G (c : Dev nD) (H : Fin 50000 → Fin 64 → EReal) : S50000x64.Idx → EReal :=
  fun i => Cert.Spec.gnorm H (gw m c) (gb m c) (ga m c) (i 0) (i 1)

/-- An index of the array is in point `t`'s block iff each coordinate is in the block's range on its axis. -/
theorem r2_mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v27).slice (win2_6.rect t)).set ↔ _
  rw [View.set_slice_whole, Rect.mem_set_unit]
  exact Iff.rfl

/-- Every index of the array lies in the block of the point its row falls in. -/
theorem r2_cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have ht : (i 0).val / 5000 < 10 := by omega
  obtain ⟨-, -, -, -, -, -, -, -, -, -, -, -, e0, e1⟩ := r2_index_facts ⟨(i 0).val / 5000, ht⟩
  refine ⟨⟨(i 0).val / 5000, ht⟩, flush2_6 _, ?_⟩
  rw [r2_mem_blk]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 64 ≤ (i 1).val ∧ (i 1).val < win2_6.index ⟨(i 0).val / 5000, ht⟩ (1 : Fin 2) * 64 + 64
    rw [e1]; omega

/-- What point `t` writes back is block `t` of the graph normalisation of `H`. -/
theorem r2_flushed (c : Dev nD) (H : Fin 50000 → Fin 64 → EReal)
    (h8 : ∀ (r : Fin 50000) (j : Fin 64), (Reg0.dat0 (Run.V1 m ρ) c).arrAt 8 cfg0.N (ix2 r j) = H r j)
    (h9 : ∀ j : Fin 64, (Reg0.dat0 (Run.V1 m ρ) c).arrAt 9 cfg0.N (ix2 0 j) = ∑ r : Fin 50000, H r j)
    (h3 : ∀ j : Fin 64, (Reg1.dat1 (Run.V3 m ρ) c).arrAt 3 cfg1.N (ix2 0 j)
      = ∑ r : Fin 50000, Cert.Spec.colDev H (ga m c) r j * Cert.Spec.colDev H (ga m c) r j)
    (t : Fin cfg2.N) :
    (Reg2.dat2 (Run.V5 m ρ) c).flushed 6 t = ((cfg2.win 6).blk t).view.read (Elt Ideal) (r2_G m c H) := by
  show (cfg2.win 6).cut (grid2.coords t) ((Reg2.dat2 (Run.V5 m ρ) c).after 6 t) = _
  rw [Reg2.after2_6]
  unfold Reg2.out2_6
  rw [View.canon_unit_zero r2_hz]
  simp only [View.ld_unit_zero (S := S5000x64) r2_hz, View.ld_unit_zero (S := S1x64) r2_hz]
  funext y
  obtain ⟨p, q, rfl⟩ : ∃ (p : Fin 5000) (q : Fin 64), y = ix2 p q := ⟨y 0, y 1, eq_ix2 y⟩
  show k2_pay1 (F := Ideal) (Reg2.iblk2 (Run.V5 m ρ) c 0 t) (Reg2.iblk2 (Run.V5 m ρ) c 3 t) (Reg2.iblk2 (Run.V5 m ρ) c 1 t)
      (Reg2.iblk2 (Run.V5 m ρ) c 4 t) (Reg2.iblk2 (Run.V5 m ρ) c 2 t) (Reg2.iblk2 (Run.V5 m ρ) c 5 t) (ix2 p q)
    = r2_G m c H (((cfg2.win 6).blk t).view.emb (ix2 p q))
  rw [r2_emb_6]
  refine (PayVal.out2_apply _ _ _ _ _ _ p q).trans ?_
  rw [r2_read_rows, r2_read_alpha, r2_read_mean, r2_read_scale, r2_read_var, r2_read_shift, h8, h9, h3]
  rfl

/-- The result array after the third region, entry by entry. -/
theorem final2_6 (c : Dev nD) (H : Fin 50000 → Fin 64 → EReal)
    (h8 : ∀ (r : Fin 50000) (j : Fin 64), (Reg0.dat0 (Run.V1 m ρ) c).arrAt 8 cfg0.N (ix2 r j) = H r j)
    (h9 : ∀ j : Fin 64, (Reg0.dat0 (Run.V1 m ρ) c).arrAt 9 cfg0.N (ix2 0 j) = ∑ r : Fin 50000, H r j)
    (h3 : ∀ j : Fin 64, (Reg1.dat1 (Run.V3 m ρ) c).arrAt 3 cfg1.N (ix2 0 j)
      = ∑ r : Fin 50000, Cert.Spec.colDev H (ga m c) r j * Cert.Spec.colDev H (ga m c) r j)
    (r : Fin 50000) (j : Fin 64) :
    (Reg2.dat2 (Run.V5 m ρ) c).arrAt 6 cfg2.N (ix2 r j) = Cert.Spec.gnorm H (gw m c) (gb m c) (ga m c) r j := by
  have hA := (Reg2.dat2 (Run.V5 m ρ) c).arrAt_eq_of_cover 6 (r2_G m c H) (fun t _ => r2_flushed m ρ c H h8 h9 h3 t) r2_cover
  rw [hA]
  rfl

end Cert.KernelIdeal.KVal

end
-- ==== Proof.KOut.lean ====
/-
  The idealized kernel program's run with its result named: every weakly fair execution terminates with the
  result array at the specification of the launch arrays (its aggregated rows the kernel's own host chain of
  the node features and the edge list) and the argument arrays as launched.  The result array is the third
  region's output window's array; what it holds is the three regions' values chained.
-/
import proofs.«181132_j3805341024429_1_alg».proof.Proof.KVal0
import proofs.«181132_j3805341024429_1_alg».proof.Proof.KVal1
import proofs.«181132_j3805341024429_1_alg».proof.Proof.KVal2

set_option maxRecDepth 16384

noncomputable section

namespace Cert.KernelIdeal.KVal

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The specification of core `c`'s launch arrays. -/
def specOut (c : Dev nD) : S50000x64.Idx → EReal :=
  Cert.Spec.out (m ((c.tc : Thread nD τ).loc main_arg0)) (agg m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The result array at the end of the run is the specification. -/
theorem kernel_out (c : Dev nD) : Run.W6 m ρ c (Proc.devRef .tc main_v27) = specOut m c := by
  refine (Run.W6_arr m ρ c 6).trans ?_
  funext i
  obtain ⟨r, j, rfl⟩ : ∃ (r : Fin 50000) (j : Fin 64), i = ix2 r j := ⟨i 0, i 1, eq_ix2 i⟩
  exact (final2_6 m ρ c (Hrows m c) (final0_8 m ρ c) (final0_9 m ρ c)
    (fun j => final1_3 m ρ c (Hrows m c) (final0_8 m ρ c) (final0_9 m ρ c) j) r j).trans rfl

/-- The run, with the result named and the arguments kept. -/
theorem run_value : θ_run (defs (F := Ideal)) (onTc (τ := τ) (main (F := Ideal))) ⟨m, fun _ => 0, ρ⟩ (fun r => ∀ c : Dev nD,
      r.2.mem ((c.tc : Thread nD τ).loc main_v27) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c main_v27 (by decide)).trans (kernel_out m ρ c),
      (h c main_arg0 (by decide)).trans (Run.W6_main_arg0 m ρ c),
      (h c main_arg1 (by decide)).trans (Run.W6_main_arg1 m ρ c),
      (h c main_arg2 (by decide)).trans (Run.W6_main_arg2 m ρ c),
      (h c main_arg3 (by decide)).trans (Run.W6_main_arg3 m ρ c),
      (h c main_arg4 (by decide)).trans (Run.W6_main_arg4 m ρ c),
      (h c main_arg5 (by decide)).trans (Run.W6_main_arg5 m ρ c),
      (h c main_arg6 (by decide)).trans (Run.W6_main_arg6 m ρ c),
      (h c main_arg7 (by decide)).trans (Run.W6_main_arg7 m ρ c),
      (h c main_arg8 (by decide)).trans (Run.W6_main_arg8 m ρ c),
      (h c main_arg9 (by decide)).trans (Run.W6_main_arg9 m ρ c),
      (h c main_arg10 (by decide)).trans (Run.W6_main_arg10 m ρ c)⟩)
    (Run.run_ref (F := Ideal) m ρ)

end Cert.KernelIdeal.KVal

end
-- ==== Proof.RefValue.lean ====
/-
  The reference program's result is the specification.

  Read index by index, the reference computes at node `r` and column `j`: the node's row times one plus
  its aggregated neighbours' row; two layers, each a bias-free linear map against the transposed weight
  matrix, a layer normalisation over the row's 64 entries (mean and mean of squared deviations by division
  by 64, the reciprocal square root of the variance plus epsilon, scale and shift) and a clamp at zero;
  then, down each column of the 50000 resulting rows, the column's mean, the deviations from `alpha` times
  that mean, the mean of their squares, and the scaled, shifted, normalised deviation.  Each stage is read
  once at explicit coordinates and cited by the next; the aggregated rows (a gather followed by a
  scatter-add) are kept as one function of the node features and the edge list and never opened.
-/
import proofs.«181132_j3805341024429_1_alg».proof.Proof.Gen.ReferenceIdeal.Read
import proofs.«181132_j3805341024429_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 x4 : (⟨S64, .f32⟩ : BufTy).Contents (Elt Ideal))
  (x5 : (⟨S64x64, .f32⟩ : BufTy).Contents (Elt Ideal)) (x6 x7 x8 x9 x10 : (⟨S64, .f32⟩ : BufTy).Contents (Elt Ideal))

/-! ### The composed index functions at coordinates -/

local macro "idx_two" : tactic => `(tactic| exact funext fun a => Fin.ext (by match a with | ⟨0, _⟩ => rfl | ⟨1, _⟩ => rfl))
local macro "idx_one" : tactic => `(tactic| exact funext fun a => Fin.ext (by match a with | ⟨0, _⟩ => rfl))

section Indices
variable (r : Fin 50000) (j k : Fin 64)

theorem idx17 : idx_main_v17 (ix2 k j) = ix2 j k := by idx_two
theorem lidx18 : lidx_main_v18 (ix2 r j) k = ix2 r k := by idx_two
theorem ridx18 : ridx_main_v18 (ix2 r j) k = ix2 k j := by idx_two
theorem idx19 : idx_main_v19 (ix1 r) k = ix2 r k := by idx_two
theorem idx20 : idx_main_v20 (ix2 r (0 : Fin 1)) = ix1 r := by idx_one
theorem idx23 : idx_main_v23 (ix2 r j) = ix2 r (0 : Fin 1) := by idx_two
theorem idx26 : idx_main_v26 (ix1 r) k = ix2 r k := by idx_two
theorem idx27 : idx_main_v27 (ix2 r (0 : Fin 1)) = ix1 r := by idx_one
theorem idx30 : idx_main_v30 (ix2 r j) = ix2 r (0 : Fin 1) := by idx_two
theorem idx35 : idx_main_v35 (ix2 r j) = ix2 r (0 : Fin 1) := by idx_two
theorem idx37 : idx_main_v37 (ix2 (0 : Fin 1) j) = ix1 j := by idx_one
theorem idx38 : idx_main_v38 (ix2 r j) = ix2 (0 : Fin 1) j := by idx_two
theorem idx40 : idx_main_v40 (ix2 (0 : Fin 1) j) = ix1 j := by idx_one
theorem idx41 : idx_main_v41 (ix2 r j) = ix2 (0 : Fin 1) j := by idx_two

theorem idx44 : idx_main_v44 (ix2 k j) = ix2 j k := by idx_two
theorem lidx45 : lidx_main_v45 (ix2 r j) k = ix2 r k := by idx_two
theorem ridx45 : ridx_main_v45 (ix2 r j) k = ix2 k j := by idx_two
theorem idx46 : idx_main_v46 (ix1 r) k = ix2 r k := by idx_two
theorem idx47 : idx_main_v47 (ix2 r (0 : Fin 1)) = ix1 r := by idx_one
theorem idx50 : idx_main_v50 (ix2 r j) = ix2 r (0 : Fin 1) := by idx_two
theorem idx53 : idx_main_v53 (ix1 r) k = ix2 r k := by idx_two
theorem idx54 : idx_main_v54 (ix2 r (0 : Fin 1)) = ix1 r := by idx_one
theorem idx57 : idx_main_v57 (ix2 r j) = ix2 r (0 : Fin 1) := by idx_two
theorem idx62 : idx_main_v62 (ix2 r j) = ix2 r (0 : Fin 1) := by idx_two
theorem idx64 : idx_main_v64 (ix2 (0 : Fin 1) j) = ix1 j := by idx_one
theorem idx65 : idx_main_v65 (ix2 r j) = ix2 (0 : Fin 1) j := by idx_two
theorem idx67 : idx_main_v67 (ix2 (0 : Fin 1) j) = ix1 j := by idx_one
theorem idx68 : idx_main_v68 (ix2 r j) = ix2 (0 : Fin 1) j := by idx_two

theorem idx71 : idx_main_v71 (ix1 j) r = ix2 r j := by idx_two
theorem idx72 : idx_main_v72 (ix2 (0 : Fin 1) j) = ix1 j := by idx_one
theorem idx75 : idx_main_v75 (ix2 (0 : Fin 1) j) = ix1 j := by idx_one
theorem idx77 : idx_main_v77 (ix2 r j) = ix2 (0 : Fin 1) j := by idx_two
theorem idx80 : idx_main_v80 (ix1 j) r = ix2 r j := by idx_two
theorem idx81 : idx_main_v81 (ix2 (0 : Fin 1) j) = ix1 j := by idx_one
theorem idx84 : idx_main_v84 (ix2 (0 : Fin 1) j) = ix1 j := by idx_one
theorem idx85 : idx_main_v85 (ix2 r j) = ix2 (0 : Fin 1) j := by idx_two
theorem idx90 : idx_main_v90 (ix2 r j) = ix2 (0 : Fin 1) j := by idx_two
theorem idx92 : idx_main_v92 (ix2 (0 : Fin 1) j) = ix1 j := by idx_one
theorem idx93 : idx_main_v93 (ix2 r j) = ix2 (0 : Fin 1) j := by idx_two

end Indices

/-! ### The first layer -/

/-- A weight matrix by its two coordinates. -/
def mat (W : (⟨S64x64, .f32⟩ : BufTy).Contents (Elt Ideal)) : Fin 64 → Fin 64 → EReal := fun j k => W (ix2 j k)
/-- A 64-vector by its coordinate. -/
def vec (v : (⟨S64, .f32⟩ : BufTy).Contents (Elt Ideal)) : Fin 64 → EReal := fun j => v (ix1 j)

/-- Row `r` of the first layer's input: the node's own row times one plus its aggregated neighbours' row. -/
def hin (r : Fin 50000) : Fin 64 → EReal :=
  fun k => x0 (ix2 r k) * Cert.Spec.one + val_main_v13 (F := Ideal) x0 x1 (ix2 r k)

/-- Row `r` after the first linear map. -/
def pre0 (r : Fin 50000) : Fin 64 → EReal := Cert.Spec.lin (mat x2) (hin x0 x1 r)

/-- Row `r` after the first layer. -/
def mid (r : Fin 50000) : Fin 64 → EReal := Cert.Spec.layer (mat x2) (vec x3) (vec x4) (hin x0 x1 r)

theorem v16_at (r : Fin 50000) (k : Fin 64) :
    val_main_v16 (F := Ideal) x0 x1 (ix2 r k) = hin x0 x1 r k := by
  rewrite [val_main_v16_apply, val_main_v15_apply, val_main_v14_apply, val_main_cst_1_apply]
  simp only [Ideal.addf_def, Ideal.mulf_def, Ideal.ofBits_def]
  rewrite [mul_comm (Ideal.ofBits .f32 0x3F800000#32)]
  rfl

theorem v18_at (r : Fin 50000) (j : Fin 64) :
    val_main_v18 (F := Ideal) x0 x1 x2 (ix2 r j) = pre0 x0 x1 x2 r j := by
  rewrite [val_main_v18_apply]
  show _ = ∑ k : Fin 64, hin x0 x1 r k * mat x2 j k
  refine Finset.sum_congr rfl fun k _ => ?_
  rewrite [lidx18, ridx18, val_main_v17_apply, idx17, v16_at]
  rfl

theorem v22_at (r : Fin 50000) :
    val_main_v22 (F := Ideal) x0 x1 x2 (ix2 r (0 : Fin 1)) = Cert.Spec.rowMean (pre0 x0 x1 x2 r) := by
  rewrite [val_main_v22_apply, val_main_v20_apply, idx20, val_main_v19_apply, val_main_v21_apply, val_main_cst_3_apply,
    val_main_cst_2_apply]
  simp only [Ideal.hostDivf_def, Ideal.ofBits_def, Ideal.ofBits_zero_f32, zero_add]
  unfold Cert.Spec.rowMean
  refine congrArg (fun s => Ideal.div s Cert.Spec.c64) (Finset.sum_congr rfl fun k _ => ?_)
  rewrite [idx19, v18_at]
  rfl

theorem v24_at (r : Fin 50000) (j : Fin 64) :
    val_main_v24 (F := Ideal) x0 x1 x2 (ix2 r j) = Cert.Spec.rowDev (pre0 x0 x1 x2 r) j := by
  rewrite [val_main_v24_apply, val_main_v23_apply, idx23, v22_at, v18_at]
  rfl

theorem v31_at (r : Fin 50000) (j : Fin 64) :
    val_main_v31 (F := Ideal) x0 x1 x2 (ix2 r j) = Cert.Spec.rowDev (pre0 x0 x1 x2 r) j := by
  rewrite [val_main_v31_apply, val_main_v30_apply, idx30, v22_at, v18_at]
  rfl

theorem v29_at (r : Fin 50000) :
    val_main_v29 (F := Ideal) x0 x1 x2 (ix2 r (0 : Fin 1)) = Cert.Spec.rowVar (pre0 x0 x1 x2 r) := by
  rewrite [val_main_v29_apply, val_main_v27_apply, idx27, val_main_v26_apply, val_main_v28_apply, val_main_cst_5_apply,
    val_main_cst_4_apply]
  simp only [Ideal.hostDivf_def, Ideal.ofBits_def, Ideal.ofBits_zero_f32, zero_add]
  unfold Cert.Spec.rowVar
  refine congrArg (fun s => Ideal.div s Cert.Spec.c64) (Finset.sum_congr rfl fun k _ => ?_)
  rewrite [idx26, val_main_v25_apply, v24_at]
  rfl

theorem v42_at (r : Fin 50000) (j : Fin 64) :
    val_main_v42 (F := Ideal) x0 x1 x2 x3 x4 (ix2 r j) = Cert.Spec.lnorm (vec x3) (vec x4) (pre0 x0 x1 x2 r) j := by
  rewrite [val_main_v42_apply, val_main_v39_apply, val_main_v36_apply, val_main_v35_apply, idx35, val_main_v34_apply,
    val_main_v33_apply, val_main_v32_apply, val_main_cst_6_apply, v29_at, v31_at,
    val_main_v38_apply, idx38, val_main_v37_apply, idx37, val_main_v41_apply, idx41, val_main_v40_apply, idx40]
  simp only [Ideal.addf_def, Ideal.mulf_def, Ideal.hostUnary_rsqrt_def, Ideal.ofBits_def]
  rfl

theorem v43_at (r : Fin 50000) (j : Fin 64) :
    val_main_v43 (F := Ideal) x0 x1 x2 x3 x4 (ix2 r j) = mid x0 x1 x2 x3 x4 r j := by
  rewrite [val_main_v43_apply, val_main_call0_v0_apply, val_main_call0_cst_apply, v42_at]
  simp only [Ideal.maximumf_def, Ideal.ofBits_def]
  rfl

/-! ### The second layer -/

/-- Row `r` after the second linear map. -/
def pre1 (r : Fin 50000) : Fin 64 → EReal := Cert.Spec.lin (mat x5) (mid x0 x1 x2 x3 x4 r)

/-- The rows after both layers. -/
def rowsR : Fin 50000 → Fin 64 → EReal :=
  Cert.Spec.rows x0 (val_main_v13 (F := Ideal) x0 x1) x2 x3 x4 x5 x6 x7

theorem v45_at (r : Fin 50000) (j : Fin 64) :
    val_main_v45 (F := Ideal) x0 x1 x2 x3 x4 x5 (ix2 r j) = pre1 x0 x1 x2 x3 x4 x5 r j := by
  rewrite [val_main_v45_apply]
  show _ = ∑ k : Fin 64, mid x0 x1 x2 x3 x4 r k * mat x5 j k
  refine Finset.sum_congr rfl fun k _ => ?_
  rewrite [lidx45, ridx45, val_main_v44_apply, idx44, v43_at]
  rfl

theorem v49_at (r : Fin 50000) :
    val_main_v49 (F := Ideal) x0 x1 x2 x3 x4 x5 (ix2 r (0 : Fin 1)) = Cert.Spec.rowMean (pre1 x0 x1 x2 x3 x4 x5 r) := by
  rewrite [val_main_v49_apply, val_main_v47_apply, idx47, val_main_v46_apply, val_main_v48_apply, val_main_cst_8_apply,
    val_main_cst_7_apply]
  simp only [Ideal.hostDivf_def, Ideal.ofBits_def, Ideal.ofBits_zero_f32, zero_add]
  unfold Cert.Spec.rowMean
  refine congrArg (fun s => Ideal.div s Cert.Spec.c64) (Finset.sum_congr rfl fun k _ => ?_)
  rewrite [idx46, v45_at]
  rfl

theorem v51_at (r : Fin 50000) (j : Fin 64) :
    val_main_v51 (F := Ideal) x0 x1 x2 x3 x4 x5 (ix2 r j) = Cert.Spec.rowDev (pre1 x0 x1 x2 x3 x4 x5 r) j := by
  rewrite [val_main_v51_apply, val_main_v50_apply, idx50, v49_at, v45_at]
  rfl

theorem v58_at (r : Fin 50000) (j : Fin 64) :
    val_main_v58 (F := Ideal) x0 x1 x2 x3 x4 x5 (ix2 r j) = Cert.Spec.rowDev (pre1 x0 x1 x2 x3 x4 x5 r) j := by
  rewrite [val_main_v58_apply, val_main_v57_apply, idx57, v49_at, v45_at]
  rfl

theorem v56_at (r : Fin 50000) :
    val_main_v56 (F := Ideal) x0 x1 x2 x3 x4 x5 (ix2 r (0 : Fin 1)) = Cert.Spec.rowVar (pre1 x0 x1 x2 x3 x4 x5 r) := by
  rewrite [val_main_v56_apply, val_main_v54_apply, idx54, val_main_v53_apply, val_main_v55_apply, val_main_cst_10_apply,
    val_main_cst_9_apply]
  simp only [Ideal.hostDivf_def, Ideal.ofBits_def, Ideal.ofBits_zero_f32, zero_add]
  unfold Cert.Spec.rowVar
  refine congrArg (fun s => Ideal.div s Cert.Spec.c64) (Finset.sum_congr rfl fun k _ => ?_)
  rewrite [idx53, val_main_v52_apply, v51_at]
  rfl

theorem v69_at (r : Fin 50000) (j : Fin 64) :
    val_main_v69 (F := Ideal) x0 x1 x2 x3 x4 x5 x6 x7 (ix2 r j)
      = Cert.Spec.lnorm (vec x6) (vec x7) (pre1 x0 x1 x2 x3 x4 x5 r) j := by
  rewrite [val_main_v69_apply, val_main_v66_apply, val_main_v63_apply, val_main_v62_apply, idx62, val_main_v61_apply,
    val_main_v60_apply, val_main_v59_apply, val_main_cst_11_apply, v56_at, v58_at,
    val_main_v65_apply, idx65, val_main_v64_apply, idx64, val_main_v68_apply, idx68, val_main_v67_apply, idx67]
  simp only [Ideal.addf_def, Ideal.mulf_def, Ideal.hostUnary_rsqrt_def, Ideal.ofBits_def]
  rfl

theorem v70_at (r : Fin 50000) (j : Fin 64) :
    val_main_v70 (F := Ideal) x0 x1 x2 x3 x4 x5 x6 x7 (ix2 r j) = rowsR x0 x1 x2 x3 x4 x5 x6 x7 r j := by
  rewrite [val_main_v70_apply, val_main_call1_v0_apply, val_main_call1_cst_apply, v69_at]
  simp only [Ideal.maximumf_def, Ideal.ofBits_def]
  rfl

/-! ### The graph normalisation, down each column of the 50000 rows -/

theorem v74_at (j : Fin 64) :
    val_main_v74 (F := Ideal) x0 x1 x2 x3 x4 x5 x6 x7 (ix2 (0 : Fin 1) j)
      = Cert.Spec.colMean (rowsR x0 x1 x2 x3 x4 x5 x6 x7) j := by
  rewrite [val_main_v74_apply, val_main_v72_apply, idx72, val_main_v71_apply, val_main_v73_apply, val_main_cst_13_apply,
    val_main_cst_12_apply]
  simp only [Ideal.hostDivf_def, Ideal.ofBits_def, Ideal.ofBits_zero_f32, zero_add]
  unfold Cert.Spec.colMean
  refine congrArg (fun s => Ideal.div s Cert.Spec.cN) (Finset.sum_congr rfl fun r _ => ?_)
  rewrite [idx71, v70_at]
  rfl

theorem v78_at (r : Fin 50000) (j : Fin 64) :
    val_main_v78 (F := Ideal) x0 x1 x2 x3 x4 x5 x6 x7 x10 (ix2 r j)
      = Cert.Spec.colDev (rowsR x0 x1 x2 x3 x4 x5 x6 x7) (vec x10) r j := by
  rewrite [val_main_v78_apply, val_main_v77_apply, idx77, val_main_v76_apply, val_main_v75_apply, idx75, v74_at, v70_at]
  simp only [Ideal.subf_def, Ideal.mulf_def]
  rfl

theorem v83_at (j : Fin 64) :
    val_main_v83 (F := Ideal) x0 x1 x2 x3 x4 x5 x6 x7 x10 (ix2 (0 : Fin 1) j)
      = Cert.Spec.colVar (rowsR x0 x1 x2 x3 x4 x5 x6 x7) (vec x10) j := by
  rewrite [val_main_v83_apply, val_main_v81_apply, idx81, val_main_v80_apply, val_main_v82_apply, val_main_cst_15_apply,
    val_main_cst_14_apply]
  simp only [Ideal.hostDivf_def, Ideal.ofBits_def, Ideal.ofBits_zero_f32, zero_add]
  unfold Cert.Spec.colVar
  refine congrArg (fun s => Ideal.div s Cert.Spec.cN) (Finset.sum_congr rfl fun r _ => ?_)
  rewrite [idx80, val_main_v79_apply, v78_at]
  rfl

theorem v94_at (r : Fin 50000) (j : Fin 64) :
    val_main_v94 (F := Ideal) x0 x1 x2 x3 x4 x5 x6 x7 x8 x9 x10 (ix2 r j)
      = Cert.Spec.gnorm (rowsR x0 x1 x2 x3 x4 x5 x6 x7) (vec x8) (vec x9) (vec x10) r j := by
  rewrite [val_main_v94_apply, val_main_v91_apply, val_main_v86_apply, val_main_v85_apply, idx85, val_main_v84_apply, idx84,
    v78_at, val_main_v90_apply, idx90, val_main_v89_apply, val_main_v88_apply, v83_at, val_main_v87_apply,
    val_main_cst_16_apply, val_main_v93_apply, idx93, val_main_v92_apply, idx92]
  simp only [Ideal.addf_def, Ideal.mulf_def, Ideal.hostUnary_rsqrt_def, Ideal.ofBits_def]
  rfl

/-- The reference program's result is the specification of the argument arrays and the reference's own
    aggregated rows. -/
theorem ref_out :
    val_main_v94 (F := Ideal) x0 x1 x2 x3 x4 x5 x6 x7 x8 x9 x10
      = Cert.Spec.out x0 (val_main_v13 (F := Ideal) x0 x1) x2 x3 x4 x5 x6 x7 x8 x9 x10 := by
  funext i
  obtain ⟨r, j, rfl⟩ : ∃ (r : Fin 50000) (j : Fin 64), i = ix2 r j := ⟨i 0, i 1, eq_ix2 i⟩
  rewrite [v94_at]
  rfl

end Cert.ReferenceIdeal.RefValue

end
-- ==== Proof.lean ====
/-
  The certificate's claim.  The kernel program, word-level and idealized, runs three kernel regions among
  host operations: its frames are its run read at the argument arrays.  The idealized kernel's result is the
  specification of the launch arrays — row by row the two-layer network of a node's own row plus its
  aggregated neighbours' row, then the graph normalisation down each column — and so is the reference's,
  stage by stage; the aggregated rows are the same host operations of the node features and the edge list in
  both programs.  The ideal pass rewrote nothing, so the preservation claim asks nothing.
-/
import proofs.«181132_j3805341024429_1_alg».proof.Defs
import proofs.«181132_j3805341024429_1_alg».proof.Proof.Gen.Kernel
import proofs.«181132_j3805341024429_1_alg».proof.Proof.Gen.KernelIdeal
import proofs.«181132_j3805341024429_1_alg».proof.Proof.Gen.ReferenceIdeal
import proofs.«181132_j3805341024429_1_alg».proof.Proof.Gen.Pre_finite_inputs
import proofs.«181132_j3805341024429_1_alg».proof.Proof.BRun
import proofs.«181132_j3805341024429_1_alg».proof.Proof.KOut
import proofs.«181132_j3805341024429_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program's frame: its run, read at the argument arrays. -/
theorem frame_k : Cert.frame_Kernel := fun m ρ _ =>
  (θ_run (Cert.Kernel.defs (F := Bits)) _ _).mono (fun _ h c => ⟨
      (h c Cert.Kernel.main_arg0 (by decide)).trans (Cert.Kernel.Run.W6_main_arg0 m ρ c),
      (h c Cert.Kernel.main_arg1 (by decide)).trans (Cert.Kernel.Run.W6_main_arg1 m ρ c),
      (h c Cert.Kernel.main_arg2 (by decide)).trans (Cert.Kernel.Run.W6_main_arg2 m ρ c),
      (h c Cert.Kernel.main_arg3 (by decide)).trans (Cert.Kernel.Run.W6_main_arg3 m ρ c),
      (h c Cert.Kernel.main_arg4 (by decide)).trans (Cert.Kernel.Run.W6_main_arg4 m ρ c),
      (h c Cert.Kernel.main_arg5 (by decide)).trans (Cert.Kernel.Run.W6_main_arg5 m ρ c),
      (h c Cert.Kernel.main_arg6 (by decide)).trans (Cert.Kernel.Run.W6_main_arg6 m ρ c),
      (h c Cert.Kernel.main_arg7 (by decide)).trans (Cert.Kernel.Run.W6_main_arg7 m ρ c),
      (h c Cert.Kernel.main_arg8 (by decide)).trans (Cert.Kernel.Run.W6_main_arg8 m ρ c),
      (h c Cert.Kernel.main_arg9 (by decide)).trans (Cert.Kernel.Run.W6_main_arg9 m ρ c),
      (h c Cert.Kernel.main_arg10 (by decide)).trans (Cert.Kernel.Run.W6_main_arg10 m ρ c)⟩)
    (Cert.Kernel.Run.run_ref (F := Bits) m ρ)

/-- The idealized kernel program's frame: its run, read at the argument arrays. -/
theorem frame_ki : Cert.frame_KernelIdeal := fun m ρ _ =>
  (θ_run (Cert.KernelIdeal.defs (F := Ideal)) _ _).mono (fun _ h c => (h c).2) (Cert.KernelIdeal.KVal.run_value m ρ)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The aggregated rows are the same host operations in both programs (a gather of the source rows, negative
    indices wrapped, scattered additively into zeros at the target rows). -/
theorem agg_eq {F : FTy → Type} [FloatOps F] (x0 : (⟨Cert.ReferenceIdeal.S50000x64, .f32⟩ : BufTy).Contents (Elt F))
    (x1 : (⟨Cert.ReferenceIdeal.S2x800000, .i32⟩ : BufTy).Contents (Elt F)) :
    Cert.KernelIdeal.KVal.aggK (F := F) x0 x1 = Cert.ReferenceIdeal.Read.val_main_v13 (F := F) x0 x1 := rfl

/-- Both idealized programs end with the specification of their (agreeing) argument arrays. -/
theorem algebraic : Cert.algebraic_KernelIdeal_ReferenceIdeal := by
  intro m ρ m' ρ' _ hagree
  refine ⟨fun c => Cert.KernelIdeal.KVal.specOut m c, Cert.KernelIdeal.KVal.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v94_eq, Cert.ReferenceIdeal.RefValue.ref_out, e0, e1, e2, e3, e4, e5, e6, e7, e8, e9, e10,
    ← agg_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
